-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S50x128 : Shape := ⟨2, ![50, 128]⟩
abbrev S50 : Shape := ⟨1, ![50]⟩
abbrev S16x50 : Shape := ⟨2, ![16, 50]⟩
abbrev S16 : Shape := ⟨1, ![16]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50x128 : S_.BroadcastsInDim S50x128 (![] : Fin 0 → Fin S50x128.rank)
  reducesTo_S50x128_S_d0_1 : S50x128.ReducesTo [0, 1] S_
  bcast_S_S50 : S_.BroadcastsInDim S50 (![] : Fin 0 → Fin S50.rank)
  reducesTo_S50_S_d0 : S50.ReducesTo [0] S_
  bcast_S_S16x50 : S_.BroadcastsInDim S16x50 (![] : Fin 0 → Fin S16x50.rank)
  reducesTo_S16x50_S_d0_1 : S16x50.ReducesTo [0, 1] S_
  bcast_S_S16 : S_.BroadcastsInDim S16 (![] : Fin 0 → Fin S16.rank)
  reducesTo_S16_S_d0 : S16.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part5 {F : FTy → Type} [FloatOps F] (main_arg1 : IVec S2x600000 32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : IVec S1x600000 32 := (extractStridedSlice S1x600000 ![0, 0] · slices_S2x600000_S1x600000_0_0) main_arg1
  let main_v90 : IVec S600000 32 := shapeCast S600000 main_v89 shapeCasts_S1x600000_S600000
  let main_c_34 : IVec S_ 32 := constantI S_ 32 0#32
  let main_v91 : IVec S600000 32 := broadcastInDim S600000 ![] bcast_S_S600000 main_c_34
  let main_v92 : IVec S600000 1 := cmpi .sge main_v90 main_v91
  let main_v93 : IVec S1x600000 32 := (extractStridedSlice S1x600000 ![0, 0] · slices_S2x600000_S1x600000_0_0) main_arg1
  let main_v94 : IVec S600000 32 := shapeCast S600000 main_v93 shapeCasts_S1x600000_S600000
  let main_c_35 : IVec S_ 32 := constantI S_ 32 100000#32
  let main_v95 : IVec S600000 32 := broadcastInDim S600000 ![] bcast_S_S600000 main_c_35
  let main_v96 : IVec S600000 1 := cmpi .slt main_v94 main_v95
  let main_v97 : IVec S600000 1 := andi main_v92 main_v96
  let main_c_36 : IVec S_ 1 := constantI S_ 1 1#1
  let main_v98 : IVec S_ 1 := (fun x v => Host.reduce IntOp.andi x v reducesTo_S600000_S_d0 h_S_) main_v97 main_c_36
  let main_v99 : IVec S_ 1 := andi main_v88 main_v98
  main_v99

def fn_part4 {F : FTy → Type} [FloatOps F] (main_arg1 : IVec S2x600000 32) (main_arg15 : FVec F S50x128 .f32) (main_arg16 : FVec F S50 .f32) (main_arg17 : FVec F S16x50 .f32) (main_arg18 : FVec F S16 .f32) (main_v63 : IVec S_ 1) (main_v67 : IVec S_ 1) : IVec S_ 1 :=
  let main_v68 : IVec S_ 1 := andi main_v63 main_v67
  let main_v69 : FVec F S50x128 .f32 := Host.absf main_arg15
  let main_cst_26 : FVec F S_ .f32 := constant S_ .f32 0x7F800000#32
  let main_v70 : FVec F S50x128 .f32 := broadcastInDim S50x128 ![] bcast_S_S50x128 main_cst_26
  let main_v71 : IVec S50x128 1 := cmpf .olt main_v69 main_v70
  let main_c_27 : IVec S_ 1 := constantI S_ 1 1#1
  let main_v72 : IVec S_ 1 := (fun x v => Host.reduce IntOp.andi x v reducesTo_S50x128_S_d0_1 h_S_) main_v71 main_c_27
  let main_v73 : IVec S_ 1 := andi main_v68 main_v72
  let main_v74 : FVec F S50 .f32 := Host.absf main_arg16
  let main_cst_28 : FVec F S_ .f32 := constant S_ .f32 0x7F800000#32
  let main_v75 : FVec F S50 .f32 := broadcastInDim S50 ![] bcast_S_S50 main_cst_28
  let main_v76 : IVec S50 1 := cmpf .olt main_v74 main_v75
  let main_c_29 : IVec S_ 1 := constantI S_ 1 1#1
  let main_v77 : IVec S_ 1 := (fun x v => Host.reduce IntOp.andi x v reducesTo_S50_S_d0 h_S_) main_v76 main_c_29
  let main_v78 : IVec S_ 1 := andi main_v73 main_v77
  let main_v79 : FVec F S16x50 .f32 := Host.absf main_arg17
  let main_cst_30 : FVec F S_ .f32 := constant S_ .f32 0x7F800000#32
  let main_v80 : FVec F S16x50 .f32 := broadcastInDim S16x50 ![] bcast_S_S16x50 main_cst_30
  let main_v81 : IVec S16x50 1 := cmpf .olt main_v79 main_v80
  let main_c_31 : IVec S_ 1 := constantI S_ 1 1#1
  let main_v82 : IVec S_ 1 := (fun x v => Host.reduce IntOp.andi x v reducesTo_S16x50_S_d0_1 h_S_) main_v81 main_c_31
  let main_v83 : IVec S_ 1 := andi main_v78 main_v82
  let main_v84 : FVec F S16 .f32 := Host.absf main_arg18
  let main_cst_32 : FVec F S_ .f32 := constant S_ .f32 0x7F800000#32
  fn_part5 (F := F) main_arg1 main_v83 main_v84 main_cst_32

def fn_part3 {F : FTy → Type} [FloatOps F] (main_arg1 : IVec S2x600000 32) (main_arg12 : FVec F S128 .f32) (main_arg13 : FVec F S128 .f32) (main_arg14 : FVec F S128 .f32) (main_arg15 : FVec F S50x128 .f32) (main_arg16 : FVec F S50 .f32) (main_arg17 : FVec F S16x50 .f32) (main_arg18 : FVec F S16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_arg17 main_arg18 main_v63 main_v67

def fn_part2 {F : FTy → Type} [FloatOps F] (main_arg1 : IVec S2x600000 32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S50x128 .f32) (main_arg16 : FVec F S50 .f32) (main_arg17 : FVec F S16x50 .f32) (main_arg18 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_arg16 main_arg17 main_arg18 main_v48 main_v49 main_v50

def fn_part1 {F : FTy → Type} [FloatOps F] (main_arg1 : IVec S2x600000 32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S50x128 .f32) (main_arg16 : FVec F S50 .f32) (main_arg17 : FVec F S16x50 .f32) (main_arg18 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S50x128 .f32) (main_arg16 : FVec F S50 .f32) (main_arg17 : FVec F S16x50 .f32) (main_arg18 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S50x128 : Shape := ⟨2, ![50, 128]⟩
abbrev S50 : Shape := ⟨1, ![50]⟩
abbrev S16x50 : Shape := ⟨2, ![16, 50]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S100000x16 : Shape := ⟨2, ![100000, 16]⟩
abbrev S5000x16 : Shape := ⟨2, ![5000, 16]⟩
abbrev S128x50 : Shape := ⟨2, ![128, 50]⟩
abbrev S5000x50 : Shape := ⟨2, ![5000, 50]⟩
abbrev S1x50 : Shape := ⟨2, ![1, 50]⟩
abbrev S50x16 : Shape := ⟨2, ![50, 16]⟩
abbrev S1x16 : Shape := ⟨2, ![1, 16]⟩

abbrev nBuf : Space → Nat
  | .hbm => 148
  | .vmem => 41
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S50x128, .f32⟩
  | 16 => ⟨S50, .f32⟩
  | 17 => ⟨S16x50, .f32⟩
  | 18 => ⟨S16, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S1, .i32⟩
  | 32 => ⟨S_, .i32⟩
  | 33 => ⟨S600000x1, .i32⟩
  | 34 => ⟨S600000x1, .i1⟩
  | 35 => ⟨S1x1, .i32⟩
  | 36 => ⟨S600000x1, .i32⟩
  | 37 => ⟨S600000x1, .i1⟩
  | 38 => ⟨S600000x1, .i1⟩
  | 39 => ⟨S_, .i1⟩
  | 40 => ⟨S600000, .i1⟩
  | 41 => ⟨S600000x128, .f32⟩
  | 42 => ⟨S600000x128, .i1⟩
  | 43 => ⟨S_, .f32⟩
  | 44 => ⟨S600000x128, .f32⟩
  | 45 => ⟨S600000x128, .f32⟩
  | 46 => ⟨S_, .f32⟩
  | 47 => ⟨S100000x128, .f32⟩
  | 48 => ⟨S600000x1, .i32⟩
  | 49 => ⟨S100000x128, .f32⟩
  | 50 => ⟨S_, .f32⟩
  | 51 => ⟨S600000, .f32⟩
  | 52 => ⟨S_, .f32⟩
  | 53 => ⟨S100000, .f32⟩
  | 54 => ⟨S600000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S_, .i32⟩
  | 64 => ⟨S600000, .i32⟩
  | 65 => ⟨S600000, .i1⟩
  | 66 => ⟨S_, .i32⟩
  | 67 => ⟨S600000, .i32⟩
  | 68 => ⟨S600000, .i32⟩
  | 69 => ⟨S600000, .i32⟩
  | 70 => ⟨S600000x1, .i32⟩
  | 71 => ⟨S1, .i32⟩
  | 72 => ⟨S_, .i32⟩
  | 73 => ⟨S600000x1, .i32⟩
  | 74 => ⟨S600000x1, .i1⟩
  | 75 => ⟨S1x1, .i32⟩
  | 76 => ⟨S600000x1, .i32⟩
  | 77 => ⟨S600000x1, .i1⟩
  | 78 => ⟨S600000x1, .i1⟩
  | 79 => ⟨S_, .i1⟩
  | 80 => ⟨S600000, .i1⟩
  | 81 => ⟨S600000x128, .f32⟩
  | 82 => ⟨S600000x128, .i1⟩
  | 83 => ⟨S_, .f32⟩
  | 84 => ⟨S600000x128, .f32⟩
  | 85 => ⟨S600000x128, .f32⟩
  | 86 => ⟨S_, .f32⟩
  | 87 => ⟨S100000x128, .f32⟩
  | 88 => ⟨S600000x1, .i32⟩
  | 89 => ⟨S100000x128, .f32⟩
  | 90 => ⟨S_, .f32⟩
  | 91 => ⟨S600000, .f32⟩
  | 92 => ⟨S_, .f32⟩
  | 93 => ⟨S100000, .f32⟩
  | 94 => ⟨S600000x1, .i32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x128, .f32⟩
  | 101 => ⟨S100000x128, .f32⟩
  | 102 => ⟨S100000x128, .f32⟩
  | 103 => ⟨S_, .i32⟩
  | 104 => ⟨S600000, .i32⟩
  | 105 => ⟨S600000, .i1⟩
  | 106 => ⟨S_, .i32⟩
  | 107 => ⟨S600000, .i32⟩
  | 108 => ⟨S600000, .i32⟩
  | 109 => ⟨S600000, .i32⟩
  | 110 => ⟨S600000x1, .i32⟩
  | 111 => ⟨S1, .i32⟩
  | 112 => ⟨S_, .i32⟩
  | 113 => ⟨S600000x1, .i32⟩
  | 114 => ⟨S600000x1, .i1⟩
  | 115 => ⟨S1x1, .i32⟩
  | 116 => ⟨S600000x1, .i32⟩
  | 117 => ⟨S600000x1, .i1⟩
  | 118 => ⟨S600000x1, .i1⟩
  | 119 => ⟨S_, .i1⟩
  | 120 => ⟨S600000, .i1⟩
  | 121 => ⟨S600000x128, .f32⟩
  | 122 => ⟨S600000x128, .i1⟩
  | 123 => ⟨S_, .f32⟩
  | 124 => ⟨S600000x128, .f32⟩
  | 125 => ⟨S600000x128, .f32⟩
  | 126 => ⟨S_, .f32⟩
  | 127 => ⟨S100000x128, .f32⟩
  | _ => ⟨S100000x128, .f32⟩

abbrev hbmTy0_1 (i : Nat) : BufTy := match i % 128 with
  | 0 => ⟨S600000x1, .i32⟩
  | 1 => ⟨S100000x128, .f32⟩
  | 2 => ⟨S_, .f32⟩
  | 3 => ⟨S600000, .f32⟩
  | 4 => ⟨S_, .f32⟩
  | 5 => ⟨S100000, .f32⟩
  | 6 => ⟨S600000x1, .i32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x128, .f32⟩
  | 13 => ⟨S100000x128, .f32⟩
  | 14 => ⟨S_, .f32⟩
  | 15 => ⟨S128, .f32⟩
  | 16 => ⟨S_, .f32⟩
  | 17 => ⟨S128, .f32⟩
  | 18 => ⟨S100000x128, .f32⟩
  | 19 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S50x128, .f32⟩
  | .local _ .vmem, ⟨36, _⟩ => ⟨S50, .f32⟩
  | .local _ .vmem, ⟨37, _⟩ => ⟨S16x50, .f32⟩
  | .local _ .vmem, ⟨38, _⟩ => ⟨S16, .f32⟩
  | .local _ .vmem, ⟨39, _⟩ => ⟨S5000x16, .f32⟩
  | .local _ .vmem, ⟨40, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_cst : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst_0 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_2 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v18 : Ref sig .tc := ⟨.hbm, 85, rfl⟩
abbrev main_cst_3 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_cst_4 : Ref sig .tc := ⟨.hbm, 90, rfl⟩
abbrev main_v22 : Ref sig .tc := ⟨.hbm, 91, rfl⟩
abbrev main_cst_5 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_cst_6 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v32 : Ref sig .tc := ⟨.hbm, 125, rfl⟩
abbrev main_cst_7 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_cst_8 : Ref sig .tc := ⟨.hbm, 130, rfl⟩
abbrev main_v36 : Ref sig .tc := ⟨.hbm, 131, rfl⟩
abbrev main_cst_9 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_cst_10 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_cst_11 : Ref sig .tc := ⟨.hbm, 142, rfl⟩
abbrev main_v45 : Ref sig .tc := ⟨.hbm, 143, rfl⟩
abbrev main_cst_12 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg5_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem5_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S50x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S50 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x50 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S128 : S_.BroadcastsInDim S128 (![] : Fin 0 → Fin S128.rank)
  inb_S50x128_S50x128_0_0 : ∀ a, (![0, 0] : Fin 2 → Nat) a + S50x128.size a ≤ S50x128.size a
  h_S50x128 : 0 < S50x128.numel
  transposes_S50x128_p1_0_S128x50 : S50x128.Transposes [1, 0] S128x50
  inb_S50_S50_0 : ∀ a, (![0] : Fin 1 → Nat) a + S50.size a ≤ S50.size a
  h_S50 : 0 < S50.numel
  shapeCasts_S50_S1x50 : S50.ShapeCasts S1x50
  broadcasts_S1x50_S5000x50 : S1x50.Broadcasts S5000x50
  inb_S16x50_S16x50_0_0 : ∀ a, (![0, 0] : Fin 2 → Nat) a + S16x50.size a ≤ S16x50.size a
  h_S16x50 : 0 < S16x50.numel
  transposes_S16x50_p1_0_S50x16 : S16x50.Transposes [1, 0] S50x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  reduces_S5000x16_S5000 : S5000x16.Reduces [1] S5000
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  dot_S5000x128_S128x50_S5000x50_1_0_0_1_n_n_wf : DotDims.WF S5000x128 S128x50 S5000x50 [1] [0] [0] [1] [] []
  dot_S5000x50_S50x16_S5000x16_1_0_0_1_n_n_wf : DotDims.WF S5000x50 S50x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S50x128.size a ≤ S50x128.size a
  hwx3_1 : ∀ i : grid3.Coords, EltTy.bits .f32 = 32 ∨ (Rect.block (s := S50x128) S50x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S50.size a ≤ S50.size a
  hwx3_2 : ∀ i : grid3.Coords, EltTy.bits .f32 = 32 ∨ (Rect.block (s := S50) S50.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x50.size a ≤ S16x50.size a
  hwx3_3 : ∀ i : grid3.Coords, EltTy.bits .f32 = 32 ∨ (Rect.block (s := S16x50) S16x50.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16.size a ≤ S16.size a
  hwx3_4 : ∀ i : grid3.Coords, EltTy.bits .f32 = 32 ∨ (Rect.block (s := S16) S16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x16.size a ≤ S100000x16.size a
  hwx3_5 : ∀ i : grid3.Coords, EltTy.bits .f32 = 32 ∨ (Rect.block (s := S100000x16) S5000x16.size (cc3_transform_5 i) (hinb3_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x50_S5000x50_1_0_0_1_n_n : DotDims S5000x128 S128x50 S5000x50 where
  lhsContracting := [1]
  rhsContracting := [0]
  lhsNonContracting := [0]
  rhsNonContracting := [1]
  lhsBatch := []
  rhsBatch := []
  wf := dot_S5000x128_S128x50_S5000x50_1_0_0_1_n_n_wf
def dot_S5000x50_S50x16_S5000x16_1_0_0_1_n_n : DotDims S5000x50 S50x16 S5000x16 where
  lhsContracting := [1]
  rhsContracting := [0]
  lhsNonContracting := [0]
  rhsNonContracting := [1]
  lhsBatch := []
  rhsBatch := []
  wf := dot_S5000x50_S50x16_S5000x16_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S50x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S50.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S16x50.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S5000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S50x128 : Shape := ⟨2, ![50, 128]⟩
abbrev S50 : Shape := ⟨1, ![50]⟩
abbrev S16x50 : Shape := ⟨2, ![16, 50]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S100000 : Shape := ⟨1, ![100000]⟩
abbrev S128x50 : Shape := ⟨2, ![128, 50]⟩
abbrev S100000x50 : Shape := ⟨2, ![100000, 50]⟩
abbrev S1x50 : Shape := ⟨2, ![1, 50]⟩
abbrev S50x16 : Shape := ⟨2, ![50, 16]⟩
abbrev S100000x16 : Shape := ⟨2, ![100000, 16]⟩
abbrev S1x16 : Shape := ⟨2, ![1, 16]⟩

abbrev nBuf : Space → Nat
  | .hbm => 214
  | .vmem => 0
  | .smem => 0
  | _ => 0

abbrev hbmTy0_0 (i : Nat) : BufTy := match i % 128 with
  | 0 => ⟨S100000x128, .f32⟩
  | 1 => ⟨S2x600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S50x128, .f32⟩
  | 16 => ⟨S50, .f32⟩
  | 17 => ⟨S16x50, .f32⟩
  | 18 => ⟨S16, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S100000x128, .f32⟩
  | 34 => ⟨S600000x1, .i32⟩
  | 35 => ⟨S100000x128, .f32⟩
  | 36 => ⟨S_, .f32⟩
  | 37 => ⟨S600000x1, .f32⟩
  | 38 => ⟨S_, .f32⟩
  | 39 => ⟨S100000x1, .f32⟩
  | 40 => ⟨S600000x1, .i32⟩
  | 41 => ⟨S100000x1, .f32⟩
  | 42 => ⟨S_, .f32⟩
  | 43 => ⟨S100000x1, .f32⟩
  | 44 => ⟨S100000x1, .f32⟩
  | 45 => ⟨S100000x128, .f32⟩
  | 46 => ⟨S100000x128, .f32⟩
  | 47 => ⟨S128x128, .f32⟩
  | 48 => ⟨S100000x128, .f32⟩
  | 49 => ⟨S1x128, .f32⟩
  | 50 => ⟨S100000x128, .f32⟩
  | 51 => ⟨S100000x128, .f32⟩
  | 52 => ⟨S128x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S100000x128, .f32⟩
  | 65 => ⟨S100000x128, .f32⟩
  | 66 => ⟨S100000x128, .f32⟩
  | 67 => ⟨S_, .f32⟩
  | 68 => ⟨S100000, .f32⟩
  | 69 => ⟨S100000x1, .f32⟩
  | 70 => ⟨S_, .f32⟩
  | 71 => ⟨S100000x1, .f32⟩
  | 72 => ⟨S100000x1, .f32⟩
  | 73 => ⟨S100000x128, .f32⟩
  | 74 => ⟨S100000x128, .f32⟩
  | 75 => ⟨S_, .f32⟩
  | 76 => ⟨S100000x1, .f32⟩
  | 77 => ⟨S100000x1, .f32⟩
  | 78 => ⟨S100000x1, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x128, .f32⟩
  | 96 => ⟨S_, .f32⟩
  | 97 => ⟨S100000x128, .f32⟩
  | 98 => ⟨S600000x1, .i32⟩
  | 99 => ⟨S100000x128, .f32⟩
  | 100 => ⟨S_, .f32⟩
  | 101 => ⟨S600000x1, .f32⟩
  | 102 => ⟨S_, .f32⟩
  | 103 => ⟨S100000x1, .f32⟩
  | 104 => ⟨S600000x1, .i32⟩
  | 105 => ⟨S100000x1, .f32⟩
  | 106 => ⟨S_, .f32⟩
  | 107 => ⟨S100000x1, .f32⟩
  | 108 => ⟨S100000x1, .f32⟩
  | 109 => ⟨S100000x128, .f32⟩
  | 110 => ⟨S100000x128, .f32⟩
  | 111 => ⟨S128x128, .f32⟩
  | 112 => ⟨S100000x128, .f32⟩
  | 113 => ⟨S1x128, .f32⟩
  | 114 => ⟨S100000x128, .f32⟩
  | 115 => ⟨S100000x128, .f32⟩
  | 116 => ⟨S128x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S100000, .f32⟩
  | 5 => ⟨S100000x1, .f32⟩
  | 6 => ⟨S_, .f32⟩
  | 7 => ⟨S100000x1, .f32⟩
  | 8 => ⟨S100000x1, .f32⟩
  | 9 => ⟨S100000x128, .f32⟩
  | 10 => ⟨S100000x128, .f32⟩
  | 11 => ⟨S_, .f32⟩
  | 12 => ⟨S100000x1, .f32⟩
  | 13 => ⟨S100000x1, .f32⟩
  | 14 => ⟨S100000x1, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S100000x128, .f32⟩
  | 34 => ⟨S600000x1, .i32⟩
  | 35 => ⟨S100000x128, .f32⟩
  | 36 => ⟨S_, .f32⟩
  | 37 => ⟨S600000x1, .f32⟩
  | 38 => ⟨S_, .f32⟩
  | 39 => ⟨S100000x1, .f32⟩
  | 40 => ⟨S600000x1, .i32⟩
  | 41 => ⟨S100000x1, .f32⟩
  | 42 => ⟨S_, .f32⟩
  | 43 => ⟨S100000x1, .f32⟩
  | 44 => ⟨S100000x1, .f32⟩
  | 45 => ⟨S100000x128, .f32⟩
  | 46 => ⟨S100000x128, .f32⟩
  | 47 => ⟨S128x128, .f32⟩
  | 48 => ⟨S100000x128, .f32⟩
  | 49 => ⟨S1x128, .f32⟩
  | 50 => ⟨S100000x128, .f32⟩
  | 51 => ⟨S100000x128, .f32⟩
  | 52 => ⟨S128x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S128x50, .f32⟩
  | 59 => ⟨S100000x50, .f32⟩
  | 60 => ⟨S1x50, .f32⟩
  | 61 => ⟨S100000x50, .f32⟩
  | 62 => ⟨S100000x50, .f32⟩
  | 63 => ⟨S_, .f32⟩
  | 64 => ⟨S100000x50, .f32⟩
  | 65 => ⟨S100000x50, .f32⟩
  | 66 => ⟨S50x16, .f32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x16, .f32⟩
  | 78 => ⟨S100000x16, .f32⟩
  | 79 => ⟨S100000x16, .f32⟩
  | 80 => ⟨S_, .f32⟩
  | 81 => ⟨S100000, .f32⟩
  | 82 => ⟨S100000x1, .f32⟩
  | 83 => ⟨S100000x1, .f32⟩
  | 84 => ⟨S100000x16, .f32⟩
  | 85 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call0_cst : Ref sig .tc := ⟨.hbm, 55, rfl⟩
abbrev main_call0_v0 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_v32 : Ref sig .tc := ⟨.hbm, 60, rfl⟩
abbrev main_cst_5 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_c_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_12 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_14 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call1_cst : Ref sig .tc := ⟨.hbm, 119, rfl⟩
abbrev main_call1_v0 : Ref sig .tc := ⟨.hbm, 120, rfl⟩
abbrev main_v81 : Ref sig .tc := ⟨.hbm, 121, rfl⟩
abbrev main_cst_15 : Ref sig .tc := ⟨.hbm, 122, rfl⟩
abbrev main_v82 : Ref sig .tc := ⟨.hbm, 123, rfl⟩
abbrev main_v83 : Ref sig .tc := ⟨.hbm, 124, rfl⟩
abbrev main_cst_16 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_v90 : Ref sig .tc := ⟨.hbm, 133, rfl⟩
abbrev main_cst_18 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_19 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_20 : Ref sig .tc := ⟨.hbm, 151, rfl⟩
abbrev main_v106 : Ref sig .tc := ⟨.hbm, 152, rfl⟩
abbrev main_v107 : Ref sig .tc := ⟨.hbm, 153, rfl⟩
abbrev main_c_21 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_22 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_23 : Ref sig .tc := ⟨.hbm, 164, rfl⟩
abbrev main_v116 : Ref sig .tc := ⟨.hbm, 165, rfl⟩
abbrev main_cst_24 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_25 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_call2_cst : Ref sig .tc := ⟨.hbm, 183, rfl⟩
abbrev main_call2_v0 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_call3_cst : Ref sig .tc := ⟨.hbm, 191, rfl⟩
abbrev main_call3_v0 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_call4_cst : Ref sig .tc := ⟨.hbm, 199, rfl⟩
abbrev main_call4_v0 : Ref sig .tc := ⟨.hbm, 200, rfl⟩
abbrev main_call4_cst_0 : Ref sig .tc := ⟨.hbm, 201, rfl⟩
abbrev main_call4_v1 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_v6 : Ref sig .tc := ⟨.hbm, 207, rfl⟩
abbrev main_call4_cst_1 : Ref sig .tc := ⟨.hbm, 208, rfl⟩
abbrev main_call4_v7 : Ref sig .tc := ⟨.hbm, 209, rfl⟩
abbrev main_call4_v8 : Ref sig .tc := ⟨.hbm, 210, rfl⟩
abbrev main_call4_v9 : Ref sig .tc := ⟨.hbm, 211, rfl⟩
abbrev main_call4_v10 : Ref sig .tc := ⟨.hbm, 212, rfl⟩
abbrev main_v144 : Ref sig .tc := ⟨.hbm, 213, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  transposes_S50x128_S128x50_1_0 : S50x128.Transposes [1, 0] S128x50
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  bcast_S_S100000x50 : S_.BroadcastsInDim S100000x50 (![] : Fin 0 → Fin S100000x50.rank)
  transposes_S16x50_S50x16_1_0 : S16x50.Transposes [1, 0] S50x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  bcast_S_S100000 : S_.BroadcastsInDim S100000 (![] : Fin 0 → Fin S100000.rank)
  bcast_S100000x1_S100000x16_0_1 : S100000x1.BroadcastsInDim S100000x16 (![0, 1] : Fin 2 → Fin S100000x16.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []
  dot_S100000x128_S128x50_S100000x50_1_0_0_1_n_n_wf : DotDims.WF S100000x128 S128x50 S100000x50 [1] [0] [0] [1] [] []
  dot_S100000x50_S50x16_S100000x16_1_0_0_1_n_n_wf : DotDims.WF S100000x50 S50x16 S100000x16 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x50_S100000x50_1_0_0_1_n_n : DotDims S100000x128 S128x50 S100000x50 where
  lhsContracting := [1]
  rhsContracting := [0]
  lhsNonContracting := [0]
  rhsNonContracting := [1]
  lhsBatch := []
  rhsBatch := []
  wf := dot_S100000x128_S128x50_S100000x50_1_0_0_1_n_n_wf
def dot_S100000x50_S50x16_S100000x16_1_0_0_1_n_n : DotDims S100000x50 S50x16 S100000x16 where
  lhsContracting := [1]
  rhsContracting := [0]
  lhsNonContracting := [0]
  rhsNonContracting := [1]
  lhsBatch := []
  rhsBatch := []
  wf := dot_S100000x50_S50x16_S100000x16_1_0_0_1_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LayerRows.lean ====
/-
  More layers of a row-wise network, read block against whole: the products, sums, maxima and pointwise functions a
  graph-convolution layer with a layer normalisation, and a two-layer head with a log-softmax, are made of. Each lemma says:
  if the operands of the tiled spelling are the σ-rows of the operands of the whole-array spelling, so is the result.
-/
import proofs.«429018_j42013370089829_2_alg».proof.Proof.LibRowLayers
import Idealize.ShloMosaic.Lib.KernelVsHost

noncomputable section

open scoped BigOperators

namespace RowLayers

open Idealize.ShloMosaic Idealize.ShloMosaic.ValueIdx

variable {mb M : ℕ} {σ : Fin mb → Fin M}

/-- A cast of a matrix to its own shape changes nothing. -/
theorem Rows.castSelf {k : ℕ} {a : (⟨2, ![mb, k]⟩ : Shape).Idx → EReal} {A : (⟨2, ![M, k]⟩ : Shape).Idx → EReal}
    (h : (⟨2, ![mb, k]⟩ : Shape).ShapeCasts ⟨2, ![mb, k]⟩) (ha : Rows σ a A) : Rows σ (shapeCast ⟨2, ![mb, k]⟩ a h) A := by
  rw [shapeCast_self]; exact ha

/-- An m×k matrix times a k×n matrix on the matrix unit, into a zero accumulator, at (a, b): the sum over the
    contracted coordinate of the products. -/
theorem matmulPlain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The tiled product of a block with a weight matrix against the host's product of the whole matrix with the same
    weight matrix: row r of either reads row r of the left operand only. -/
theorem Rows.matmulPlain {k n : ℕ} (prec prec' : Option ContractPrecision)
    {a : FVec Ideal ⟨2, ![mb, k]⟩ .f32} {A : FVec Ideal ⟨2, ![M, k]⟩ .f32} (ha : Rows σ a A)
    (W : FVec Ideal ⟨2, ![k, n]⟩ .f32) :
    Rows σ (matmul (DotDims.plain mb k n) prec a W (constant ⟨2, ![mb, n]⟩ .f32 0x00000000#32))
      (Host.dotGeneral (DotDims.plain M k n) prec' A W) := fun p c => by
  rw [matmulPlain_apply, StackMember.dotGeneral_plain_apply]
  simp only [ha p]

/-- A bias vector as a row: cast and broadcast down the block against broadcast twice down the whole matrix. -/
theorem Rows.biasRow {n : ℕ} (hsc : (⟨1, ![n]⟩ : Shape).ShapeCasts ⟨2, ![1, n]⟩)
    (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (b : (⟨1, ![n]⟩ : Shape).Idx → EReal) :
    Rows σ (broadcastTo ⟨2, ![mb, n]⟩ (shapeCast ⟨2, ![1, n]⟩ b hsc) hbc)
      (broadcastInDim ⟨2, ![M, n]⟩ ![0, 1] h01 (broadcastInDim ⟨2, ![1, n]⟩ ![1] h1 b)) := fun p c => by
  rw [biasRow_apply, rowDown_apply, rowBroadcast_apply]

/-- The sum of a row, a lane reduction along the columns, read at row r. -/
theorem rowSum_apply {m k : ℕ} (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ x 0x00000000#32 hred hfmt hacc (ix1 r) = ∑ c : Fin k, x (ix2 r c) := by
  rw [Ideal.multiReduction_add_single]
  refine Finset.sum_congr rfl fun c _ => ?_
  rw [lift_cols]; rfl

/-- The host's sum of a row from the zero scalar, at row r. -/
theorem hostRowSum_apply {m k : ℕ} (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd X (constant (F := Ideal) ⟨0, ![]⟩ .f32 0x00000000#32) hrt hu (ix1 r) = ∑ c : Fin k, X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The row sums as a column: the lane reduction cast to a column against the host's reduction broadcast to one. -/
theorem Rows.rowSumCol {k : ℕ} (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel) (h0 : (⟨1, ![M]⟩ : Shape).BroadcastsInDim ⟨2, ![M, 1]⟩ ![0])
    {x : FVec Ideal ⟨2, ![mb, k]⟩ .f32} {X : FVec Ideal ⟨2, ![M, k]⟩ .f32} (hx : Rows σ x X) :
    Rows σ (shapeCast ⟨2, ![mb, 1]⟩ (multiReduction .add [1] ⟨1, ![mb]⟩ x 0x00000000#32 hred hfmt hacc) hsc)
      (broadcastInDim ⟨2, ![M, 1]⟩ ![0] h0
        (Host.reduceAdd X (constant (F := Ideal) ⟨0, ![]⟩ .f32 0x00000000#32) hrt hu)) := fun p c => by
  rw [column_apply, columnBroadcast_apply, rowSum_apply, hostRowSum_apply hrt hRed]
  simp only [hx p]

/-- The vector unit's quotient against the host's: one function of the extended reals. -/
theorem Rows.divfHost {k : ℕ} {a b : FVec Ideal ⟨2, ![mb, k]⟩ .f32} {A B : FVec Ideal ⟨2, ![M, k]⟩ .f32}
    (ha : Rows σ a A) (hb : Rows σ b B) : Rows σ (divf a b) (Host.divf A B) := fun p c => by
  show Ideal.div (a _) (b _) = Ideal.div (A _) (B _)
  rw [ha p c, hb p c]

/-- A column broadcast along the rows' entries, tiled against whole. -/
theorem Rows.colAcross {k : ℕ} (hbc : (⟨2, ![mb, 1]⟩ : Shape).Broadcasts ⟨2, ![mb, k]⟩)
    (h01 : (⟨2, ![M, 1]⟩ : Shape).BroadcastsInDim ⟨2, ![M, k]⟩ ![0, 1])
    {v : (⟨2, ![mb, 1]⟩ : Shape).Idx → EReal} {V : (⟨2, ![M, 1]⟩ : Shape).Idx → EReal} (hv : Rows σ v V) :
    Rows σ (broadcastTo ⟨2, ![mb, k]⟩ v hbc) (broadcastInDim ⟨2, ![M, k]⟩ ![0, 1] h01 V) := fun p c => by
  rw [broadcastColumn_apply, columnAcross_apply]
  exact hv p 0

/-- The reciprocal square root: the vector unit's against the host's. -/
theorem Rows.rsqrt {k : ℕ} {a : FVec Ideal ⟨2, ![mb, k]⟩ .f32} {A : FVec Ideal ⟨2, ![M, k]⟩ .f32}
    (ha : Rows σ a A) : Rows σ (rsqrt a) (Host.rsqrt A) := fun p c => by
  show Ideal.rsqrt (a _) = Ideal.rsqrt (A _)
  rw [ha p c]

/-- The exponential. -/
theorem Rows.exp {k : ℕ} {a : FVec Ideal ⟨2, ![mb, k]⟩ .f32} {A : FVec Ideal ⟨2, ![M, k]⟩ .f32}
    (ha : Rows σ a A) : Rows σ (exp a) (Host.exp A) := fun p c => by
  show Ideal.exp (a _) = Ideal.exp (A _)
  rw [ha p c]

/-- The logarithm. -/
theorem Rows.log {k : ℕ} {a : FVec Ideal ⟨2, ![mb, k]⟩ .f32} {A : FVec Ideal ⟨2, ![M, k]⟩ .f32}
    (ha : Rows σ a A) : Rows σ (log a) (Host.log A) := fun p c => by
  show Ideal.log (a _) = Ideal.log (A _)
  rw [ha p c]

/-- The largest entry of each row as a column. The lane reduction folds the maximum from minus infinity over the
    columns; so does the host's reduction, and taking the larger of that and minus infinity once more changes nothing. -/
theorem Rows.rowMaxCol {k : ℕ} (hred : (⟨2, ![mb, k]⟩ : Shape).Reduces [1] ⟨1, ![mb]⟩) (hfmt : FKind.Formats FTy.f32)
    (hacc : (0xFF800000#32 : BitVec FTy.f32.bits) = FKind.maximumf.neutral .f32 hfmt)
    (hsc : (⟨1, ![mb]⟩ : Shape).ShapeCasts ⟨2, ![mb, 1]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel) (hb : (⟨0, ![]⟩ : Shape).BroadcastsInDim ⟨1, ![M]⟩ ![])
    (h0 : (⟨1, ![M]⟩ : Shape).BroadcastsInDim ⟨2, ![M, 1]⟩ ![0])
    {x : FVec Ideal ⟨2, ![mb, k]⟩ .f32} {X : FVec Ideal ⟨2, ![M, k]⟩ .f32} (hx : Rows σ x X) :
    Rows σ (shapeCast ⟨2, ![mb, 1]⟩ (multiReduction .maximumf [1] ⟨1, ![mb]⟩ x 0xFF800000#32 hred hfmt hacc) hsc)
      (broadcastInDim ⟨2, ![M, 1]⟩ ![0] h0
        (maximumf (broadcastInDim ⟨1, ![M]⟩ ![] hb (constant (F := Ideal) ⟨0, ![]⟩ .f32 0xFF800000#32))
          (Host.reduce FloatOps.maximumf X (constant (F := Ideal) ⟨0, ![]⟩ .f32 0xFF800000#32) hrt hu))) := fun p c => by
  rw [column_apply, columnBroadcast_apply, maximumf_apply, scalarBroadcast_apply,
    Ideal.multiReduction_maximumf_single, Host.reduce_eq_fold_single FloatOps.maximumf X _ hrt hRed hu]
  have hbot : ∀ y : EReal, max (Ideal.ofBits .f32 0xFF800000#32) y = y := fun y => by
    simp [Ideal.ofBits, Ideal.ieee]
  show _ = max (Ideal.ofBits .f32 0xFF800000#32) _
  rw [hbot]
  have hf : (x ∘ hred.lift (ix1 p)) = (X ∘ hRed.lift (ix1 (σ p))) := funext fun q => by
    show x (hred.lift (ix1 p) q) = X (hRed.lift (ix1 (σ p)) q)
    exact (congrArg x (lift_cols hred p q)).trans ((hx p _).trans (congrArg X (lift_cols hRed (σ p) q)).symm)
  show Finset.fold max (FloatOps.ofBits .f32 0xFF800000#32) (x ∘ hred.lift (ix1 p)) Finset.univ
    = Finset.fold FloatOps.maximumf (constant (F := Ideal) ⟨0, ![]⟩ .f32 0xFF800000#32 (Shape.Idx.first hu)) (X ∘ hRed.lift (ix1 (σ p))) Finset.univ
  rw [hf]
  rfl

end RowLayers

end
-- ==== Proof.Spec.lean ====
/-
  The network as whole-array functions.

  A graph-convolution layer averages, for every node, the feature rows of the nodes its incoming edges start at,
  and adds two affine images: of that average and of the node's own row. Two such layers are followed by a
  rectification and a layer normalisation each, a third by a rectification only; a two-layer head with a
  log-softmax reads the result. Every function here is written with whole-array operations, at any float instance.
  The neighbour average is spelt twice: once reading the source rows directly, once through a read that
  fills rows of out-of-range sources with a not-a-number and counts the degrees in a vector instead of a column.
-/
import proofs.«429018_j42013370089829_2_alg».proof.Proof.LayerRows

noncomputable section

namespace Cert.Sage

open Idealize.ShloMosaic

variable {F : FTy → Type} [FloatOps F]

abbrev SE2 : Shape := ⟨2, ![2, 600000]⟩
abbrev S1E : Shape := ⟨2, ![1, 600000]⟩
abbrev SE : Shape := ⟨1, ![600000]⟩
abbrev SEx1 : Shape := ⟨2, ![600000, 1]⟩
abbrev SExD : Shape := ⟨2, ![600000, 128]⟩
abbrev SN : Shape := ⟨1, ![100000]⟩
abbrev SNx1 : Shape := ⟨2, ![100000, 1]⟩
abbrev SNxD : Shape := ⟨2, ![100000, 128]⟩
abbrev SNx50 : Shape := ⟨2, ![100000, 50]⟩
abbrev SNx16 : Shape := ⟨2, ![100000, 16]⟩
abbrev S0 : Shape := ⟨0, ![]⟩
abbrev SD : Shape := ⟨1, ![128]⟩
abbrev S1xD : Shape := ⟨2, ![1, 128]⟩
abbrev SDxD : Shape := ⟨2, ![128, 128]⟩

/-- Dimension numbers: a read of whole rows at a column of start indices; an accumulation of whole rows, of the
    entries of a vector, and of the entries of a column, each at a column of target indices. -/
def gRows : GatherDims SNxD SEx1 SExD where
  offsetDims := [1]
  collapsedSliceDims := [0]
  operandBatchingDims := []
  startIndicesBatchingDims := []
  startIndexMap := [0]
  indexVectorDim := 1
  sliceSizes := ![1, 128]
def sRows : ScatterDims SNxD SEx1 SExD where
  updateWindowDims := [1]
  insertedWindowDims := [0]
  scatterDimsToOperandDims := [0]
  indexVectorDim := 1
def sDegV : ScatterDims SN SEx1 SE where
  updateWindowDims := []
  insertedWindowDims := [0]
  scatterDimsToOperandDims := [0]
  indexVectorDim := 1
def sDegC : ScatterDims SNx1 SEx1 SEx1 where
  updateWindowDims := [1]
  insertedWindowDims := [0]
  scatterDimsToOperandDims := [0]
  indexVectorDim := 1

/-- Row r of the edge list: r = 0 the sources, r = 1 the targets. -/
def edgeRow (r : Nat) (h : SE2.Slices ![r, 0] S1E) (hc : S1E.ShapeCasts SE) (ei : IVec SE2 32) : IVec SE 32 :=
  shapeCast SE (extractStridedSlice S1E ![r, 0] ei h) hc

/-- A source index with negative values counted from the end, as a column of start indices. -/
def wrapCol (src : IVec SE 32) : IVec SEx1 32 :=
  broadcastInDim SEx1 ![0] (by decide)
    (select (cmpi .slt src (broadcastInDim SE ![] (by decide) (constantI S0 32 0#32)))
      (addi src (broadcastInDim SE ![] (by decide) (constantI S0 32 100000#32))) src)

/-- The degree-normalised sum over incoming edges of the messages msg, degrees counted in a column. -/
def meanR (msg : FVec F SExD .f32) (dst : IVec SE 32) : FVec F SNxD .f32 :=
  Host.divf
    (Host.scatterAdd sRows (broadcastInDim SNxD ![] (by decide) (constant S0 .f32 0x00000000#32))
      (broadcastInDim SEx1 ![0] (by decide) dst) msg)
    (broadcastInDim SNxD ![0, 1] (by decide)
      (maximumf
        (Host.scatterAdd sDegC (broadcastInDim SNx1 ![] (by decide) (constant S0 .f32 0x00000000#32))
          (broadcastInDim SEx1 ![0] (by decide) dst) (broadcastInDim SEx1 ![] (by decide) (constant S0 .f32 0x3F800000#32)))
        (broadcastInDim SNx1 ![] (by decide) (constant S0 .f32 0x3F800000#32))))

/-- The same with the degrees counted in a vector, made a column afterwards. -/
def meanK (msg : FVec F SExD .f32) (dst : IVec SE 32) : FVec F SNxD .f32 :=
  Host.divf
    (Host.scatterAdd sRows (broadcastInDim SNxD ![] (by decide) (constant S0 .f32 0x00000000#32))
      (broadcastInDim SEx1 ![0] (by decide) dst) msg)
    (broadcastInDim SNxD ![0, 1] (by decide)
      (broadcastInDim SNx1 ![0] (by decide)
        (maximumf
          (Host.scatterAdd sDegV (broadcastInDim SN ![] (by decide) (constant S0 .f32 0x00000000#32))
            (broadcastInDim SEx1 ![0] (by decide) dst) (broadcastInDim SE ![] (by decide) (constant S0 .f32 0x3F800000#32)))
          (broadcastInDim SN ![] (by decide) (constant S0 .f32 0x3F800000#32)))))

/-- The rows of H at the source indices. -/
def gatherR (H : FVec F SNxD .f32) (src : IVec SE 32) : FVec F SExD .f32 :=
  Host.gather gRows H (wrapCol src)

/-- The same read with a row of not-a-numbers wherever the wrapped source index is outside [0, 99999]. -/
def gatherK (H : FVec F SNxD .f32) (src : IVec SE 32) : FVec F SExD .f32 :=
  select
    (broadcastInDim SExD ![0] (by decide)
      (Host.reduce (axes := [1]) (t := SE) IntOp.andi
        (andi (cmpi .sge (wrapCol src) (broadcastInDim SEx1 ![] (by decide) (constantI S0 32 0#32)))
          (cmpi .sle (wrapCol src)
            (broadcastInDim SEx1 ![0, 1] (by decide) (broadcastInDim (⟨2, ![1, 1]⟩ : Shape) ![1] (by decide) (constantI (⟨1, ![1]⟩ : Shape) 32 99999#32)))))
        (constantI S0 1 1#1) (by decide) (by decide)))
    (Host.gather gRows H (wrapCol src))
    (broadcastInDim SExD ![] (by decide) (constant S0 .f32 0x7FC00000#32))

/-- The neighbour average of H, read directly. -/
def aggR (H : FVec F SNxD .f32) (src dst : IVec SE 32) : FVec F SNxD .f32 := meanR (gatherR H src) dst

/-- The neighbour average of H, through the filling read and the degree vector. -/
def aggK (H : FVec F SNxD .f32) (src dst : IVec SE 32) : FVec F SNxD .f32 := meanK (gatherK H src) dst

/-- agg · Wlᵀ + bl + X · Wrᵀ. -/
def sage (A X : FVec F SNxD .f32) (Wl : FVec F SDxD .f32) (bl : FVec F SD .f32) (Wr : FVec F SDxD .f32) : FVec F SNxD .f32 :=
  addf (RowLayers.Whole.affine (M := 100000) (by decide) (by decide) (by decide) A Wl bl)
    (Host.dotGeneral (DotDims.plain 100000 128 128) none X (transpose SDxD [1, 0] Wr (by decide)))

/-- The larger of each entry and zero. -/
def relu {k : Nat} (Y : FVec F ⟨2, ![100000, k]⟩ .f32) (h : S0.BroadcastsInDim ⟨2, ![100000, k]⟩ ![]) : FVec F ⟨2, ![100000, k]⟩ .f32 :=
  RowLayers.Whole.relu (M := 100000) h Y

/-- Each row's mean as a column. -/
def rowMean (Y : FVec F SNxD .f32) : FVec F SNx1 .f32 :=
  Host.divf (broadcastInDim SNx1 ![0] (by decide) (Host.reduceAdd (axes := [1]) (t := SN) Y (constant S0 .f32 0x00000000#32) (by decide) (by decide)))
    (broadcastInDim SNx1 ![] (by decide) (constant S0 .f32 0x43000000#32))

/-- The layer normalisation of each row: centred, scaled by the reciprocal root of the variance plus a small
    constant, then an affine map entry by entry. -/
def layerNorm (Y : FVec F SNxD .f32) (w b : FVec F SD .f32) : FVec F SNxD .f32 :=
  addf
    (mulf
      (mulf (subf Y (broadcastInDim SNxD ![0, 1] (by decide) (rowMean Y)))
        (broadcastInDim SNxD ![0, 1] (by decide)
          (Host.rsqrt
            (addf
              (rowMean (mulf (subf Y (broadcastInDim SNxD ![0, 1] (by decide) (rowMean Y)))
                (subf Y (broadcastInDim SNxD ![0, 1] (by decide) (rowMean Y)))))
              (broadcastInDim SNx1 ![] (by decide) (constant S0 .f32 0x3727C5AC#32))))))
      (broadcastInDim SNxD ![0, 1] (by decide) (broadcastInDim S1xD ![1] (by decide) w)))
    (broadcastInDim SNxD ![0, 1] (by decide) (broadcastInDim S1xD ![1] (by decide) b))

/-- A convolution layer with rectification and normalisation. -/
def layerLN (A X : FVec F SNxD .f32) (Wl : FVec F SDxD .f32) (bl : FVec F SD .f32) (Wr : FVec F SDxD .f32) (w b : FVec F SD .f32) :
    FVec F SNxD .f32 :=
  layerNorm (relu (sage A X Wl bl Wr) (by decide)) w b

/-- A convolution layer with rectification only. -/
def layerPlain (A X : FVec F SNxD .f32) (Wl : FVec F SDxD .f32) (bl : FVec F SD .f32) (Wr : FVec F SDxD .f32) : FVec F SNxD .f32 :=
  relu (sage A X Wl bl Wr) (by decide)

/-- Each row minus the logarithm of the sum of its exponentials, taken after subtracting the row's largest entry. -/
def logSoftmax (L : FVec F SNx16 .f32) : FVec F SNx16 .f32 :=
  subf
    (subf L (broadcastInDim SNx16 ![0, 1] (by decide)
      (broadcastInDim SNx1 ![0] (by decide)
        (maximumf (broadcastInDim SN ![] (by decide) (constant S0 .f32 0xFF800000#32))
          (Host.reduce (axes := [1]) (t := SN) FloatOps.maximumf L (constant S0 .f32 0xFF800000#32) (by decide) (by decide))))))
    (broadcastInDim SNx16 ![0, 1] (by decide)
      (Host.log (broadcastInDim SNx1 ![0] (by decide)
        (Host.reduceAdd (axes := [1]) (t := SN)
          (Host.exp (subf L (broadcastInDim SNx16 ![0, 1] (by decide)
            (broadcastInDim SNx1 ![0] (by decide)
              (maximumf (broadcastInDim SN ![] (by decide) (constant S0 .f32 0xFF800000#32))
                (Host.reduce (axes := [1]) (t := SN) FloatOps.maximumf L (constant S0 .f32 0xFF800000#32) (by decide) (by decide)))))))
          (constant S0 .f32 0x00000000#32) (by decide) (by decide)))))

/-- The head: two affine layers with a rectification between, then the log-softmax of each row. -/
def head (H : FVec F SNxD .f32) (W1 : FVec F ⟨2, ![50, 128]⟩ .f32) (b1 : FVec F ⟨1, ![50]⟩ .f32)
    (W2 : FVec F ⟨2, ![16, 50]⟩ .f32) (b2 : FVec F ⟨1, ![16]⟩ .f32) : FVec F SNx16 .f32 :=
  logSoftmax
    (RowLayers.Whole.affine (M := 100000) (by decide) (by decide) (by decide)
      (relu (RowLayers.Whole.affine (M := 100000) (by decide) (by decide) (by decide) H W1 b1) (by decide)) W2 b2)

end Cert.Sage

end
-- ==== Proof.RegionsRows.lean ====
/-
  The arithmetic of each tiled call, block against whole.

  A call's body sends the 5000 rows of its two matrix operands to 5000 rows of its result, row by row. When the
  operands of the body are the rows σ of two whole matrices, its result is the rows σ of the whole-array layer of those
  matrices: the two products and the bias, the rectification, each row's mean and variance and the normalisation by
  them; for the head the two affine layers and each row's largest entry, exponentials and their sum's logarithm.
-/
import proofs.«429018_j42013370089829_2_alg».proof.Proof.Gen.KernelIdeal.Skeleton
import proofs.«429018_j42013370089829_2_alg».proof.Proof.Spec

noncomputable section

namespace Cert.Sage

open Idealize.ShloMosaic Idealize.ShloMosaic.ValueIdx Cert.KernelIdeal Cert.KernelIdeal.Gen RowLayers

/-- The zero offsets of a rectangle, as the constant function. -/
theorem zeros2 : (![0, 0] : Fin 2 → Nat) = fun _ => 0 := funext fun a => by fin_cases a <;> rfl
theorem zeros1 : (![0] : Fin 1 → Nat) = fun _ => 0 := funext fun a => by fin_cases a <;> rfl

/-- Row p of the block of point t is row 5000 t + p of the array: twenty blocks of 5000 rows. -/
def blockRow (t : Nat) (ht : t < 20) (p : Fin 5000) : Fin 100000 := ⟨t * 5000 + p.val, by have := p.isLt; omega⟩

variable {σ : Fin 5000 → Fin 100000}

/-- agg · Wlᵀ + bl + x · Wrᵀ on a block: two products on the matrix unit and the bias as a row. -/
theorem sage_rows {a x : FVec Ideal S5000x128 .f32} {A X : FVec Ideal SNxD .f32} (ha : Rows σ a A) (hx : Rows σ x X)
    (wl wr : FVec Ideal S128x128 .f32) (bl : FVec Ideal S128 .f32) :
    Rows σ
      (addf
        (addf
          (matmul dot_S5000x128_S128x128_S5000x128_1_0_0_1_n_n (some .fp32) a
            (transpose S128x128 [1, 0] wl transposes_S128x128_p1_0_S128x128) (constant S5000x128 .f32 0x00000000#32))
          (broadcastTo S5000x128 (shapeCast S1x128 bl shapeCasts_S128_S1x128) broadcasts_S1x128_S5000x128))
        (matmul dot_S5000x128_S128x128_S5000x128_1_0_0_1_n_n (some .fp32) x
          (transpose S128x128 [1, 0] wr transposes_S128x128_p1_0_S128x128) (constant S5000x128 .f32 0x00000000#32)))
      (sage A X wl bl wr) := by
  unfold sage
  exact Rows.addf (Rows.addf (Rows.matmulPlain _ _ ha _) (Rows.biasRow _ _ _ _ bl)) (Rows.matmulPlain _ _ hx _)

/-- The mean of each row of a block, as a column: the lane sum over 128. -/
abbrev blockMean (y : FVec Ideal S5000x128 .f32) : FVec Ideal S5000x1 .f32 :=
  divf
    (shapeCast S5000x1 (multiReduction .add [1] S5000 y 0x00000000#32 reduces_S5000x128_S5000 (.inl rfl) rfl) shapeCasts_S5000_S5000x1)
    (broadcast S5000x1 (Scalar.ofBits (F := Ideal) .f32 0x43000000#32))

theorem rowMean_rows {y : FVec Ideal S5000x128 .f32} {Y : FVec Ideal SNxD .f32} (hy : Rows σ y Y) :
    Rows σ (blockMean y) (rowMean Y) := by
  unfold rowMean
  exact Rows.divfHost (Rows.rowSumCol _ _ _ _ _ (by decide) _ _ hy) (Rows.splat _ _)

/-- The normalisation of each row of a block: centred, scaled by the reciprocal root of the variance plus the small
    constant, times the weight row plus the bias row. -/
theorem layerNorm_rows {y : FVec Ideal S5000x128 .f32} {Y : FVec Ideal SNxD .f32} (hy : Rows σ y Y)
    (lw lb : FVec Ideal S128 .f32) :
    Rows σ
      (addf
        (mulf
          (mulf (subf y (broadcastTo S5000x128 (blockMean y) broadcasts_S5000x1_S5000x128))
            (broadcastTo S5000x128
              (rsqrt
                (addf
                  (blockMean
                    (mulf (subf y (broadcastTo S5000x128 (blockMean y) broadcasts_S5000x1_S5000x128))
                      (subf y (broadcastTo S5000x128 (blockMean y) broadcasts_S5000x1_S5000x128))))
                  (broadcast S5000x1 (Scalar.ofBits (F := Ideal) .f32 0x3727C5AC#32))))
              broadcasts_S5000x1_S5000x128))
          (broadcastTo S5000x128 (shapeCast S1x128 lw shapeCasts_S128_S1x128) broadcasts_S1x128_S5000x128))
        (broadcastTo S5000x128 (shapeCast S1x128 lb shapeCasts_S128_S1x128) broadcasts_S1x128_S5000x128))
      (layerNorm Y lw lb) := by
  have hc : Rows σ (subf y (broadcastTo S5000x128 (blockMean y) broadcasts_S5000x1_S5000x128))
      (subf Y (broadcastInDim SNxD ![0, 1] (by decide) (rowMean Y))) :=
    Rows.subf hy (Rows.colAcross _ _ (rowMean_rows hy))
  unfold layerNorm
  exact Rows.addf
    (Rows.mulf
      (Rows.mulf hc
        (Rows.colAcross _ _ (Rows.rsqrt (Rows.addf (rowMean_rows (Rows.mulf hc hc)) (Rows.splat _ _)))))
      (Rows.biasRow _ _ _ _ lw))
    (Rows.biasRow _ _ _ _ lb)

/-- The first convolution call's body. -/
theorem pay0_rows {a x : FVec Ideal S5000x128 .f32} {A X : FVec Ideal SNxD .f32} (ha : Rows σ a A) (hx : Rows σ x X)
    (wl wr : FVec Ideal S128x128 .f32) (bl lw lb : FVec Ideal S128 .f32) :
    Rows σ (k0_pay1 (F := Ideal) (k0_pay2 a x wl wr bl lw) (k0_pay3 lb)) (layerLN A X wl bl wr lw lb) := by
  unfold k0_pay1 k0_pay2 k0_pay3 layerLN relu
  exact layerNorm_rows (Rows.relu _ (sage_rows (Rows.castSelf _ ha) hx wl wr bl)) lw lb

/-- The second convolution call's body: the same layer, the bias row made inside the last step. -/
theorem pay1_rows {a x : FVec Ideal S5000x128 .f32} {A X : FVec Ideal SNxD .f32} (ha : Rows σ a A) (hx : Rows σ x X)
    (wl wr : FVec Ideal S128x128 .f32) (bl lw lb : FVec Ideal S128 .f32) :
    Rows σ (k1_pay1 (F := Ideal) (k1_pay2 a x wl wr bl lw) lb) (layerLN A X wl bl wr lw lb) := by
  unfold k1_pay1 k1_pay2 layerLN relu
  exact layerNorm_rows (Rows.relu _ (sage_rows (Rows.castSelf _ ha) (Rows.castSelf _ hx) wl wr bl)) lw lb

/-- The third convolution call's body: no normalisation. -/
theorem pay2_rows {a x : FVec Ideal S5000x128 .f32} {A X : FVec Ideal SNxD .f32} (ha : Rows σ a A) (hx : Rows σ x X)
    (wl wr : FVec Ideal S128x128 .f32) (bl : FVec Ideal S128 .f32) :
    Rows σ (k2_pay1 (F := Ideal) a x wl wr bl) (layerPlain A X wl bl wr) := by
  unfold k2_pay1 layerPlain relu
  exact Rows.relu _ (sage_rows (Rows.castSelf _ ha) (Rows.castSelf _ hx) wl wr bl)

/-- Each row of a block of logits minus its largest entry. -/
abbrev blockShift (l : FVec Ideal S5000x16 .f32) : FVec Ideal S5000x16 .f32 :=
  subf l
    (broadcastTo S5000x16
      (shapeCast S5000x1 (multiReduction .maximumf [1] S5000 l 0xFF800000#32 reduces_S5000x16_S5000 (.inl rfl) rfl) shapeCasts_S5000_S5000x1)
      broadcasts_S5000x1_S5000x16)

/-- The log-softmax of each row of a block. -/
theorem logSoftmax_rows {l : FVec Ideal S5000x16 .f32} {L : FVec Ideal SNx16 .f32} (hl : Rows σ l L) :
    Rows σ
      (subf (blockShift l)
        (broadcastTo S5000x16
          (log
            (shapeCast S5000x1 (multiReduction .add [1] S5000 (exp (blockShift l)) 0x00000000#32 reduces_S5000x16_S5000 (.inl rfl) rfl)
              shapeCasts_S5000_S5000x1))
          broadcasts_S5000x1_S5000x16))
      (logSoftmax L) := by
  have hs : Rows σ (blockShift l)
      (subf L (broadcastInDim SNx16 ![0, 1] (by decide)
        (broadcastInDim SNx1 ![0] (by decide)
          (maximumf (broadcastInDim SN ![] (by decide) (constant S0 .f32 0xFF800000#32))
            (Host.reduce (axes := [1]) (t := SN) FloatOps.maximumf L (constant S0 .f32 0xFF800000#32) (by decide) (by decide)))))) :=
    Rows.subf hl (Rows.colAcross _ _ (Rows.rowMaxCol _ _ _ _ _ (by decide) _ _ _ hl))
  unfold logSoftmax
  exact Rows.subf hs (Rows.colAcross _ _ (Rows.log (Rows.rowSumCol _ _ _ _ _ (by decide) _ _ (Rows.exp hs))))

/-- The head's body: two affine layers with a rectification between, then the log-softmax of each row. -/
theorem pay3_rows {h : FVec Ideal S5000x128 .f32} {H : FVec Ideal SNxD .f32} (hh : Rows σ h H)
    (w1 : FVec Ideal S50x128 .f32) (b1 : FVec Ideal S50 .f32) (w2 : FVec Ideal S16x50 .f32) (b2 : FVec Ideal S16 .f32) :
    Rows σ (k3_pay1 (F := Ideal) h w1 b1 w2 b2) (head H w1 b1 w2 b2) := by
  unfold k3_pay1 head relu
  exact logSoftmax_rows
    (Rows.addf
      (Rows.matmulPlain _ _
        (Rows.relu _ (Rows.addf (Rows.matmulPlain _ _ (Rows.castSelf _ hh) _) (Rows.biasRow _ _ _ _ b1))) _)
      (Rows.biasRow _ _ _ _ b2))

end Cert.Sage

end
-- ==== Proof.Regions0.lean ====
/-
  The first convolution call: what it leaves in its output array.

  At point t the call reads rows 5000 t … 5000 t + 4999 of the neighbour average and of the features, and the whole
  weight arrays; its body computes those rows of the layer; the rows are written back to the same place, and the twenty
  points cover the 100000 rows.
-/
import proofs.«429018_j42013370089829_2_alg».proof.Proof.Gen.KernelIdeal.Frame
import proofs.«429018_j42013370089829_2_alg».proof.Proof.RegionsRows

set_option maxRecDepth 16384

noncomputable section

namespace Cert.Sage

open Idealize.ShloMosaic Idealize.ShloMosaic.TcCoe Idealize.ShloMosaic.ValueIdx Cert.KernelIdeal Cert.KernelIdeal.Gen RowLayers

variable (V : (c : Dev nD) → (b : Ref sig .tc) → Buf (Elt Ideal) ((c : Thread nD τ).loc b))

/-- The block index of every window at every point, decided over the twenty points: the two matrix operands and
    the result move down the rows with the point, the weights stay. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 1) = 0
    ∧ win0_7.index t (0 : Fin 2) = t.val ∧ win0_7.index t (1 : Fin 2) = 0 :=
  (by decide +kernel : ∀ t : Fin grid0.N, _)

/-- The block of the neighbour average at point t is its rows 5000 t + p. -/
theorem rows0_0 (c : Dev nD) (t : Fin cfg0.N) (ht : t.val < 20) :
    Rows (blockRow t.val ht) (iblk0 V c 0 t) (V c main_v16) := by
  intro p q
  obtain ⟨e0, e1, -⟩ := index_facts0 t
  show V c main_v16 (((cfg0.win 0).blk t).view.emb (ix2 p q)) = V c main_v16 (ix2 (blockRow t.val ht p) q)
  congr 1
  funext a; apply Fin.ext
  match a with
  | ⟨0, _⟩ => show win0_0.index t (0 : Fin 2) * 5000 + 1 * p.val = t.val * 5000 + p.val; omega
  | ⟨1, _⟩ => show win0_0.index t (1 : Fin 2) * 128 + 1 * q.val = q.val; omega

/-- The block of the features at point t is their rows 5000 t + p. -/
theorem rows0_1 (c : Dev nD) (t : Fin cfg0.N) (ht : t.val < 20) :
    Rows (blockRow t.val ht) (iblk0 V c 1 t) (V c main_arg0) := by
  intro p q
  obtain ⟨-, -, e0, e1, -⟩ := index_facts0 t
  show V c main_arg0 (((cfg0.win 1).blk t).view.emb (ix2 p q)) = V c main_arg0 (ix2 (blockRow t.val ht p) q)
  congr 1
  funext a; apply Fin.ext
  match a with
  | ⟨0, _⟩ => show win0_1.index t (0 : Fin 2) * 5000 + 1 * p.val = t.val * 5000 + p.val; omega
  | ⟨1, _⟩ => show win0_1.index t (1 : Fin 2) * 128 + 1 * q.val = q.val; omega

/-- The block of a weight array is the array, at every point. -/
theorem whole0_2 (c : Dev nD) (t : Fin cfg0.N) : iblk0 V c 2 t = V c main_arg2 := by
  obtain ⟨-, -, -, -, e0, e1, -⟩ := index_facts0 t
  funext j
  show V c main_arg2 (((cfg0.win 2).blk t).view.emb j) = V c main_arg2 j
  congr 1
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem whole0_3 (c : Dev nD) (t : Fin cfg0.N) : iblk0 V c 3 t = V c main_arg3 := by
  obtain ⟨-, -, -, -, -, -, e0, -⟩ := index_facts0 t
  funext j
  show V c main_arg3 (((cfg0.win 3).blk t).view.emb j) = V c main_arg3 j
  congr 1
  funext a; apply Fin.ext
  match a with
  | ⟨0, _⟩ => show win0_3.index t (0 : Fin 1) * 128 + 1 * (j 0).val = (j 0).val; omega

theorem whole0_4 (c : Dev nD) (t : Fin cfg0.N) : iblk0 V c 4 t = V c main_arg4 := by
  obtain ⟨-, -, -, -, -, -, -, e0, e1, -⟩ := index_facts0 t
  funext j
  show V c main_arg4 (((cfg0.win 4).blk t).view.emb j) = V c main_arg4 j
  congr 1
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem whole0_5 (c : Dev nD) (t : Fin cfg0.N) : iblk0 V c 5 t = V c main_arg11 := by
  obtain ⟨-, -, -, -, -, -, -, -, -, e0, -⟩ := index_facts0 t
  funext j
  show V c main_arg11 (((cfg0.win 5).blk t).view.emb j) = V c main_arg11 j
  congr 1
  funext a; apply Fin.ext
  match a with
  | ⟨0, _⟩ => show win0_5.index t (0 : Fin 1) * 128 + 1 * (j 0).val = (j 0).val; omega

theorem whole0_6 (c : Dev nD) (t : Fin cfg0.N) : iblk0 V c 6 t = V c main_arg12 := by
  obtain ⟨-, -, -, -, -, -, -, -, -, -, e0, -⟩ := index_facts0 t
  funext j
  show V c main_arg12 (((cfg0.win 6).blk t).view.emb j) = V c main_arg12 j
  congr 1
  funext a; apply Fin.ext
  match a with
  | ⟨0, _⟩ => show win0_6.index t (0 : Fin 1) * 128 + 1 * (j 0).val = (j 0).val; omega

/-- What point t writes back is block t of the whole-array layer of the arrays the call reads. -/
theorem flushed0_eq (c : Dev nD) (t : Fin cfg0.N) :
    (dat0 V c).flushed 7 t = ((cfg0.win 7).blk t).view.read (Elt Ideal)
      (layerLN (F := Ideal) (V c main_v16) (V c main_arg0) (V c main_arg2) (V c main_arg3) (V c main_arg4) (V c main_arg11) (V c main_arg12)) := by
  have ht : t.val < 20 := Nat.lt_of_lt_of_eq t.isLt N_0
  obtain ⟨-, -, -, -, -, -, -, -, -, -, -, e0, e1⟩ := index_facts0 t
  show (cfg0.win 7).cut (grid0.coords t) ((dat0 V c).after 7 t) = _
  rw [after0_7]
  unfold out0_7
  rw [View.canon_unit_zero zeros2]
  simp only [View.ld_unit_zero (S := S5000x128) zeros2, View.ld_unit_zero (S := S128x128) zeros2, View.ld_unit_zero (S := S128) zeros1]
  rw [whole0_2, whole0_3, whole0_4, whole0_5, whole0_6]
  refine funext fun (j : S5000x128.Idx) => ?_
  obtain ⟨p, q, rfl⟩ : ∃ (p : Fin 5000) (q : Fin 128), j = ix2 p q := ⟨j 0, j 1, eq_ix2 j⟩
  refine (pay0_rows (rows0_0 V c t ht) (rows0_1 V c t ht) (V c main_arg2) (V c main_arg4) (V c main_arg3) (V c main_arg11) (V c main_arg12) p q).trans ?_
  show layerLN (F := Ideal) (V c main_v16) (V c main_arg0) (V c main_arg2) (V c main_arg3) (V c main_arg4) (V c main_arg11) (V c main_arg12) (ix2 (blockRow t.val ht p) q)
    = layerLN (F := Ideal) (V c main_v16) (V c main_arg0) (V c main_arg2) (V c main_arg3) (V c main_arg4) (V c main_arg11) (V c main_arg12) (((cfg0.win 7).blk t).view.emb (ix2 p q))
  congr 1
  funext a; apply Fin.ext
  match a with
  | ⟨0, _⟩ => show t.val * 5000 + p.val = win0_7.index t (0 : Fin 2) * 5000 + 1 * p.val; omega
  | ⟨1, _⟩ => show q.val = win0_7.index t (1 : Fin 2) * 128 + 1 * q.val; omega

/-- An index of the output array is in point t's block iff each coordinate is in the block's range on its axis. -/
theorem mem_blk0 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v17).slice (win0_7.rect t)).set ↔ _
  rw [View.set_slice_whole, Rect.mem_set_unit]
  exact Iff.rfl

/-- Row r of the output array is in the block of point r / 5000. -/
theorem cover0 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_7 _, ?_⟩
  rw [mem_blk0]
  obtain ⟨-, -, -, -, -, -, -, -, -, -, -, e0, e1⟩ := index_facts0 ⟨(i 0).val / 5000, by rw [hN]; omega⟩
  intro a
  match a with
  | ⟨0, _⟩ =>
    show win0_7.index _ (0 : Fin 2) * 5000 ≤ (i 0).val ∧ (i 0).val < win0_7.index _ (0 : Fin 2) * 5000 + 5000
    rw [e0]; show (i 0).val / 5000 * 5000 ≤ (i 0).val ∧ (i 0).val < (i 0).val / 5000 * 5000 + 5000; omega
  | ⟨1, _⟩ =>
    show win0_7.index _ (1 : Fin 2) * 128 ≤ (i 1).val ∧ (i 1).val < win0_7.index _ (1 : Fin 2) * 128 + 128
    rw [e1]; omega

/-- The first convolution call. -/
theorem final0 (c : Dev nD) : ((dat0 (F := Ideal) V c).arrAt 7 cfg0.N : FVec Ideal SNxD .f32)
    = layerLN (F := Ideal) (V c main_v16) (V c main_arg0) (V c main_arg2) (V c main_arg3) (V c main_arg4) (V c main_arg11) (V c main_arg12) :=
  (dat0 V c).arrAt_eq_of_cover 7 _ (fun t _ => flushed0_eq V c t) cover0

end Cert.Sage

end
-- ==== Proof.Regions1.lean ====
/-
  The second convolution call: what it leaves in its output array.

  At point t the call reads rows 5000 t … 5000 t + 4999 of the neighbour average of the first layer's result and of
  that result, and the whole weight arrays; its body computes those rows of the layer; the rows are written back to the
  same place, and the twenty points cover the 100000 rows.
-/
import proofs.«429018_j42013370089829_2_alg».proof.Proof.Gen.KernelIdeal.Frame
import proofs.«429018_j42013370089829_2_alg».proof.Proof.RegionsRows

set_option maxRecDepth 16384

noncomputable section

namespace Cert.Sage

open Idealize.ShloMosaic Idealize.ShloMosaic.TcCoe Idealize.ShloMosaic.ValueIdx Cert.KernelIdeal Cert.KernelIdeal.Gen RowLayers

variable (V : (c : Dev nD) → (b : Ref sig .tc) → Buf (Elt Ideal) ((c : Thread nD τ).loc b))

/-- The block index of every window at every point, decided over the twenty points: the two matrix operands and
    the result move down the rows with the point, the weights stay. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 2) = t.val ∧ win1_7.index t (1 : Fin 2) = 0 :=
  (by decide +kernel : ∀ t : Fin grid1.N, _)

/-- The block of the neighbour average at point t is its rows 5000 t + p. -/
theorem rows1_0 (c : Dev nD) (t : Fin cfg1.N) (ht : t.val < 20) :
    Rows (blockRow t.val ht) (iblk1 V c 0 t) (V c main_v30) := by
  intro p q
  obtain ⟨e0, e1, -⟩ := index_facts1 t
  show V c main_v30 (((cfg1.win 0).blk t).view.emb (ix2 p q)) = V c main_v30 (ix2 (blockRow t.val ht p) q)
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

/-- The block of the first layer's result at point t is its rows 5000 t + p. -/
theorem rows1_1 (c : Dev nD) (t : Fin cfg1.N) (ht : t.val < 20) :
    Rows (blockRow t.val ht) (iblk1 V c 1 t) (V c main_v17) := by
  intro p q
  obtain ⟨-, -, e0, e1, -⟩ := index_facts1 t
  show V c main_v17 (((cfg1.win 1).blk t).view.emb (ix2 p q)) = V c main_v17 (ix2 (blockRow t.val ht p) q)
  congr 1
  funext a; apply Fin.ext
  match a with
  | ⟨0, _⟩ => show win1_1.index t (0 : Fin 2) * 5000 + 1 * p.val = t.val * 5000 + p.val; omega
  | ⟨1, _⟩ => show win1_1.index t (1 : Fin 2) * 128 + 1 * q.val = q.val; omega

/-- The block of a weight array is the array, at every point. -/
theorem whole1_2 (c : Dev nD) (t : Fin cfg1.N) : iblk1 V c 2 t = V c main_arg5 := by
  obtain ⟨-, -, -, -, e0, e1, -⟩ := index_facts1 t
  funext j
  show V c main_arg5 (((cfg1.win 2).blk t).view.emb j) = V c main_arg5 j
  congr 1
  funext a; apply Fin.ext
  match a with
  | ⟨0, _⟩ => show win1_2.index t (0 : Fin 2) * 128 + 1 * (j 0).val = (j 0).val; omega
  | ⟨1, _⟩ => show win1_2.index t (1 : Fin 2) * 128 + 1 * (j 1).val = (j 1).val; omega

theorem whole1_3 (c : Dev nD) (t : Fin cfg1.N) : iblk1 V c 3 t = V c main_arg6 := by
  obtain ⟨-, -, -, -, -, -, e0, -⟩ := index_facts1 t
  funext j
  show V c main_arg6 (((cfg1.win 3).blk t).view.emb j) = V c main_arg6 j
  congr 1
  funext a; apply Fin.ext
  match a with
  | ⟨0, _⟩ => show win1_3.index t (0 : Fin 1) * 128 + 1 * (j 0).val = (j 0).val; omega

theorem whole1_4 (c : Dev nD) (t : Fin cfg1.N) : iblk1 V c 4 t = V c main_arg7 := by
  obtain ⟨-, -, -, -, -, -, -, e0, e1, -⟩ := index_facts1 t
  funext j
  show V c main_arg7 (((cfg1.win 4).blk t).view.emb j) = V c main_arg7 j
  congr 1
  funext a; apply Fin.ext
  match a with
  | ⟨0, _⟩ => show win1_4.index t (0 : Fin 2) * 128 + 1 * (j 0).val = (j 0).val; omega
  | ⟨1, _⟩ => show win1_4.index t (1 : Fin 2) * 128 + 1 * (j 1).val = (j 1).val; omega

theorem whole1_5 (c : Dev nD) (t : Fin cfg1.N) : iblk1 V c 5 t = V c main_arg13 := by
  obtain ⟨-, -, -, -, -, -, -, -, -, e0, -⟩ := index_facts1 t
  funext j
  show V c main_arg13 (((cfg1.win 5).blk t).view.emb j) = V c main_arg13 j
  congr 1
  funext a; apply Fin.ext
  match a with
  | ⟨0, _⟩ => show win1_5.index t (0 : Fin 1) * 128 + 1 * (j 0).val = (j 0).val; omega

theorem whole1_6 (c : Dev nD) (t : Fin cfg1.N) : iblk1 V c 6 t = V c main_arg14 := by
  obtain ⟨-, -, -, -, -, -, -, -, -, -, e0, -⟩ := index_facts1 t
  funext j
  show V c main_arg14 (((cfg1.win 6).blk t).view.emb j) = V c main_arg14 j
  congr 1
  funext a; apply Fin.ext
  match a with
  | ⟨0, _⟩ => show win1_6.index t (0 : Fin 1) * 128 + 1 * (j 0).val = (j 0).val; omega

/-- What point t writes back is block t of the whole-array layer of the arrays the call reads. -/
theorem flushed1_eq (c : Dev nD) (t : Fin cfg1.N) :
    (dat1 V c).flushed 7 t = ((cfg1.win 7).blk t).view.read (Elt Ideal)
      (layerLN (F := Ideal) (V c main_v30) (V c main_v17) (V c main_arg5) (V c main_arg6) (V c main_arg7) (V c main_arg13) (V c main_arg14)) := by
  have ht : t.val < 20 := Nat.lt_of_lt_of_eq t.isLt N_1
  obtain ⟨-, -, -, -, -, -, -, -, -, -, -, e0, e1⟩ := index_facts1 t
  show (cfg1.win 7).cut (grid1.coords t) ((dat1 V c).after 7 t) = _
  rw [after1_7]
  unfold out1_7
  rw [View.canon_unit_zero zeros2]
  simp only [View.ld_unit_zero (S := S5000x128) zeros2, View.ld_unit_zero (S := S128x128) zeros2, View.ld_unit_zero (S := S128) zeros1]
  rw [whole1_2, whole1_3, whole1_4, whole1_5, whole1_6]
  refine funext fun (j : S5000x128.Idx) => ?_
  obtain ⟨p, q, rfl⟩ : ∃ (p : Fin 5000) (q : Fin 128), j = ix2 p q := ⟨j 0, j 1, eq_ix2 j⟩
  refine (pay1_rows (rows1_0 V c t ht) (rows1_1 V c t ht) (V c main_arg5) (V c main_arg7) (V c main_arg6) (V c main_arg13) (V c main_arg14) p q).trans ?_
  show layerLN (F := Ideal) (V c main_v30) (V c main_v17) (V c main_arg5) (V c main_arg6) (V c main_arg7) (V c main_arg13) (V c main_arg14) (ix2 (blockRow t.val ht p) q)
    = layerLN (F := Ideal) (V c main_v30) (V c main_v17) (V c main_arg5) (V c main_arg6) (V c main_arg7) (V c main_arg13) (V c main_arg14) (((cfg1.win 7).blk t).view.emb (ix2 p q))
  congr 1
  funext a; apply Fin.ext
  match a with
  | ⟨0, _⟩ => show t.val * 5000 + p.val = win1_7.index t (0 : Fin 2) * 5000 + 1 * p.val; omega
  | ⟨1, _⟩ => show q.val = win1_7.index t (1 : Fin 2) * 128 + 1 * q.val; omega

/-- An index of the output array is in point t's block iff each coordinate is in the block's range on its axis. -/
theorem mem_blk1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v31).slice (win1_7.rect t)).set ↔ _
  rw [View.set_slice_whole, Rect.mem_set_unit]
  exact Iff.rfl

/-- Row r of the output array is in the block of point r / 5000. -/
theorem cover1 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_7 _, ?_⟩
  rw [mem_blk1]
  obtain ⟨-, -, -, -, -, -, -, -, -, -, -, e0, e1⟩ := index_facts1 ⟨(i 0).val / 5000, by rw [hN]; omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 128 ≤ (i 1).val ∧ (i 1).val < win1_7.index _ (1 : Fin 2) * 128 + 128
    rw [e1]; omega

/-- The second convolution call. -/
theorem final1 (c : Dev nD) : ((dat1 (F := Ideal) V c).arrAt 7 cfg1.N : FVec Ideal SNxD .f32)
    = layerLN (F := Ideal) (V c main_v30) (V c main_v17) (V c main_arg5) (V c main_arg6) (V c main_arg7) (V c main_arg13) (V c main_arg14) :=
  (dat1 V c).arrAt_eq_of_cover 7 _ (fun t _ => flushed1_eq V c t) cover1

end Cert.Sage

end
-- ==== Proof.Regions2.lean ====
/-
  The third convolution call: what it leaves in its output array.

  At point t the call reads rows 5000 t … 5000 t + 4999 of the neighbour average of the second layer's result and of
  that result, and the whole weight arrays; its body computes those rows of the layer without a normalisation; the rows
  are written back to the same place, and the twenty points cover the 100000 rows.
-/
import proofs.«429018_j42013370089829_2_alg».proof.Proof.Gen.KernelIdeal.Frame
import proofs.«429018_j42013370089829_2_alg».proof.Proof.RegionsRows

set_option maxRecDepth 16384

noncomputable section

namespace Cert.Sage

open Idealize.ShloMosaic Idealize.ShloMosaic.TcCoe Idealize.ShloMosaic.ValueIdx Cert.KernelIdeal Cert.KernelIdeal.Gen RowLayers

variable (V : (c : Dev nD) → (b : Ref sig .tc) → Buf (Elt Ideal) ((c : Thread nD τ).loc b))

/-- The block index of the windows the body reads and of the result at every point, decided over the twenty points:
    the two matrix operands and the result move down the rows with the point, the weights stay. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_7.index t (0 : Fin 2) = t.val ∧ win2_7.index t (1 : Fin 2) = 0 :=
  (by decide +kernel : ∀ t : Fin grid2.N, _)

/-- The block of the neighbour average at point t is its rows 5000 t + p. -/
theorem rows2_0 (c : Dev nD) (t : Fin cfg2.N) (ht : t.val < 20) :
    Rows (blockRow t.val ht) (iblk2 V c 0 t) (V c main_v44) := by
  intro p q
  obtain ⟨e0, e1, -⟩ := index_facts2 t
  show V c main_v44 (((cfg2.win 0).blk t).view.emb (ix2 p q)) = V c main_v44 (ix2 (blockRow t.val ht p) q)
  congr 1
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

/-- The block of the second layer's result at point t is its rows 5000 t + p. -/
theorem rows2_1 (c : Dev nD) (t : Fin cfg2.N) (ht : t.val < 20) :
    Rows (blockRow t.val ht) (iblk2 V c 1 t) (V c main_v31) := by
  intro p q
  obtain ⟨-, -, e0, e1, -⟩ := index_facts2 t
  show V c main_v31 (((cfg2.win 1).blk t).view.emb (ix2 p q)) = V c main_v31 (ix2 (blockRow t.val ht p) q)
  congr 1
  funext a; apply Fin.ext
  match a with
  | ⟨0, _⟩ => show win2_1.index t (0 : Fin 2) * 5000 + 1 * p.val = t.val * 5000 + p.val; omega
  | ⟨1, _⟩ => show win2_1.index t (1 : Fin 2) * 128 + 1 * q.val = q.val; omega

/-- The block of a weight array is the array, at every point. -/
theorem whole2_2 (c : Dev nD) (t : Fin cfg2.N) : iblk2 V c 2 t = V c main_arg8 := by
  obtain ⟨-, -, -, -, e0, e1, -⟩ := index_facts2 t
  funext j
  show V c main_arg8 (((cfg2.win 2).blk t).view.emb j) = V c main_arg8 j
  congr 1
  funext a; apply Fin.ext
  match a with
  | ⟨0, _⟩ => show win2_2.index t (0 : Fin 2) * 128 + 1 * (j 0).val = (j 0).val; omega
  | ⟨1, _⟩ => show win2_2.index t (1 : Fin 2) * 128 + 1 * (j 1).val = (j 1).val; omega

theorem whole2_3 (c : Dev nD) (t : Fin cfg2.N) : iblk2 V c 3 t = V c main_arg9 := by
  obtain ⟨-, -, -, -, -, -, e0, -⟩ := index_facts2 t
  funext j
  show V c main_arg9 (((cfg2.win 3).blk t).view.emb j) = V c main_arg9 j
  congr 1
  funext a; apply Fin.ext
  match a with
  | ⟨0, _⟩ => show win2_3.index t (0 : Fin 1) * 128 + 1 * (j 0).val = (j 0).val; omega

theorem whole2_4 (c : Dev nD) (t : Fin cfg2.N) : iblk2 V c 4 t = V c main_arg10 := by
  obtain ⟨-, -, -, -, -, -, -, e0, e1, -⟩ := index_facts2 t
  funext j
  show V c main_arg10 (((cfg2.win 4).blk t).view.emb j) = V c main_arg10 j
  congr 1
  funext a; apply Fin.ext
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- What point t writes back is block t of the whole-array layer of the arrays the call reads. -/
theorem flushed2_eq (c : Dev nD) (t : Fin cfg2.N) :
    (dat2 V c).flushed 7 t = ((cfg2.win 7).blk t).view.read (Elt Ideal)
      (layerPlain (F := Ideal) (V c main_v44) (V c main_v31) (V c main_arg8) (V c main_arg9) (V c main_arg10)) := by
  have ht : t.val < 20 := Nat.lt_of_lt_of_eq t.isLt N_2
  obtain ⟨-, -, -, -, -, -, -, -, -, e0, e1⟩ := index_facts2 t
  show (cfg2.win 7).cut (grid2.coords t) ((dat2 V c).after 7 t) = _
  rw [after2_7]
  unfold out2_7
  rw [View.canon_unit_zero zeros2]
  simp only [View.ld_unit_zero (S := S5000x128) zeros2, View.ld_unit_zero (S := S128x128) zeros2, View.ld_unit_zero (S := S128) zeros1]
  rw [whole2_2, whole2_3, whole2_4]
  refine funext fun (j : S5000x128.Idx) => ?_
  obtain ⟨p, q, rfl⟩ : ∃ (p : Fin 5000) (q : Fin 128), j = ix2 p q := ⟨j 0, j 1, eq_ix2 j⟩
  refine (pay2_rows (rows2_0 V c t ht) (rows2_1 V c t ht) (V c main_arg8) (V c main_arg10) (V c main_arg9) p q).trans ?_
  show layerPlain (F := Ideal) (V c main_v44) (V c main_v31) (V c main_arg8) (V c main_arg9) (V c main_arg10) (ix2 (blockRow t.val ht p) q)
    = layerPlain (F := Ideal) (V c main_v44) (V c main_v31) (V c main_arg8) (V c main_arg9) (V c main_arg10) (((cfg2.win 7).blk t).view.emb (ix2 p q))
  congr 1
  funext a; apply Fin.ext
  match a with
  | ⟨0, _⟩ => show t.val * 5000 + p.val = win2_7.index t (0 : Fin 2) * 5000 + 1 * p.val; omega
  | ⟨1, _⟩ => show q.val = win2_7.index t (1 : Fin 2) * 128 + 1 * q.val; omega

/-- An index of the output array is in point t's block iff each coordinate is in the block's range on its axis. -/
theorem mem_blk2 (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v47).slice (win2_7.rect t)).set ↔ _
  rw [View.set_slice_whole, Rect.mem_set_unit]
  exact Iff.rfl

/-- Row r of the output array is in the block of point r / 5000. -/
theorem cover2 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_7 _, ?_⟩
  rw [mem_blk2]
  obtain ⟨-, -, -, -, -, -, -, -, -, e0, e1⟩ := index_facts2 ⟨(i 0).val / 5000, by rw [hN]; omega⟩
  intro a
  match a with
  | ⟨0, _⟩ =>
    show win2_7.index _ (0 : Fin 2) * 5000 ≤ (i 0).val ∧ (i 0).val < win2_7.index _ (0 : Fin 2) * 5000 + 5000
    rw [e0]; show (i 0).val / 5000 * 5000 ≤ (i 0).val ∧ (i 0).val < (i 0).val / 5000 * 5000 + 5000; omega
  | ⟨1, _⟩ =>
    show win2_7.index _ (1 : Fin 2) * 128 ≤ (i 1).val ∧ (i 1).val < win2_7.index _ (1 : Fin 2) * 128 + 128
    rw [e1]; omega

/-- The third convolution call: no normalisation. -/
theorem final2 (c : Dev nD) : ((dat2 (F := Ideal) V c).arrAt 7 cfg2.N : FVec Ideal SNxD .f32)
    = layerPlain (F := Ideal) (V c main_v44) (V c main_v31) (V c main_arg8) (V c main_arg9) (V c main_arg10) :=
  (dat2 V c).arrAt_eq_of_cover 7 _ (fun t _ => flushed2_eq V c t) cover2

end Cert.Sage

end
-- ==== Proof.Regions3.lean ====
/-
  The head: what it leaves in its output array.

  At point t the call reads rows 5000 t … 5000 t + 4999 of the third layer's result and the whole weight arrays of the two
  affine layers; its body computes those rows of the log-probabilities; the rows are written back to the same place, and
  the twenty points cover the 100000 rows.
-/
import proofs.«429018_j42013370089829_2_alg».proof.Proof.Gen.KernelIdeal.Frame
import proofs.«429018_j42013370089829_2_alg».proof.Proof.RegionsRows

set_option maxRecDepth 16384

noncomputable section

namespace Cert.Sage

open Idealize.ShloMosaic Idealize.ShloMosaic.TcCoe Idealize.ShloMosaic.ValueIdx Cert.KernelIdeal Cert.KernelIdeal.Gen RowLayers

variable (V : (c : Dev nD) → (b : Ref sig .tc) → Buf (Elt Ideal) ((c : Thread nD τ).loc b))

/-- The block index of every window at every point, decided over the twenty points: the matrix operand and the
    result move down the rows with the point, the weights stay. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- The block of the third layer's result at point t is its rows 5000 t + p. -/
theorem rows3_0 (c : Dev nD) (t : Fin cfg3.N) (ht : t.val < 20) :
    Rows (blockRow t.val ht) (iblk3 V c 0 t) (V c main_v47) := by
  intro p q
  obtain ⟨e0, e1, -⟩ := index_facts3 t
  show V c main_v47 (((cfg3.win 0).blk t).view.emb (ix2 p q)) = V c main_v47 (ix2 (blockRow t.val ht p) q)
  congr 1
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

/-- The block of a weight array is the array, at every point. -/
theorem whole3_1 (c : Dev nD) (t : Fin cfg3.N) : iblk3 V c 1 t = V c main_arg15 := by
  obtain ⟨-, -, e0, e1, -⟩ := index_facts3 t
  funext j
  show V c main_arg15 (((cfg3.win 1).blk t).view.emb j) = V c main_arg15 j
  congr 1
  funext a; apply Fin.ext
  match a with
  | ⟨0, _⟩ => show win3_1.index t (0 : Fin 2) * 50 + 1 * (j 0).val = (j 0).val; omega
  | ⟨1, _⟩ => show win3_1.index t (1 : Fin 2) * 128 + 1 * (j 1).val = (j 1).val; omega

theorem whole3_2 (c : Dev nD) (t : Fin cfg3.N) : iblk3 V c 2 t = V c main_arg16 := by
  obtain ⟨-, -, -, -, e0, -⟩ := index_facts3 t
  funext j
  show V c main_arg16 (((cfg3.win 2).blk t).view.emb j) = V c main_arg16 j
  congr 1
  funext a; apply Fin.ext
  match a with
  | ⟨0, _⟩ => show win3_2.index t (0 : Fin 1) * 50 + 1 * (j 0).val = (j 0).val; omega

theorem whole3_3 (c : Dev nD) (t : Fin cfg3.N) : iblk3 V c 3 t = V c main_arg17 := by
  obtain ⟨-, -, -, -, -, e0, e1, -⟩ := index_facts3 t
  funext j
  show V c main_arg17 (((cfg3.win 3).blk t).view.emb j) = V c main_arg17 j
  congr 1
  funext a; apply Fin.ext
  match a with
  | ⟨0, _⟩ => show win3_3.index t (0 : Fin 2) * 16 + 1 * (j 0).val = (j 0).val; omega
  | ⟨1, _⟩ => show win3_3.index t (1 : Fin 2) * 50 + 1 * (j 1).val = (j 1).val; omega

theorem whole3_4 (c : Dev nD) (t : Fin cfg3.N) : iblk3 V c 4 t = V c main_arg18 := by
  obtain ⟨-, -, -, -, -, -, -, e0, -⟩ := index_facts3 t
  funext j
  show V c main_arg18 (((cfg3.win 4).blk t).view.emb j) = V c main_arg18 j
  congr 1
  funext a; apply Fin.ext
  match a with
  | ⟨0, _⟩ => show win3_4.index t (0 : Fin 1) * 16 + 1 * (j 0).val = (j 0).val; omega

/-- What point t writes back is block t of the whole-array head of the arrays the call reads. -/
theorem flushed3_eq (c : Dev nD) (t : Fin cfg3.N) :
    (dat3 V c).flushed 5 t = ((cfg3.win 5).blk t).view.read (Elt Ideal)
      (head (F := Ideal) (V c main_v47) (V c main_arg15) (V c main_arg16) (V c main_arg17) (V c main_arg18)) := by
  have ht : t.val < 20 := Nat.lt_of_lt_of_eq t.isLt N_3
  obtain ⟨-, -, -, -, -, -, -, -, e0, e1⟩ := index_facts3 t
  show (cfg3.win 5).cut (grid3.coords t) ((dat3 V c).after 5 t) = _
  rw [after3_5]
  unfold out3_5
  rw [View.canon_unit_zero zeros2]
  simp only [View.ld_unit_zero (S := S5000x128) zeros2, View.ld_unit_zero (S := S50x128) zeros2, View.ld_unit_zero (S := S50) zeros1,
    View.ld_unit_zero (S := S16x50) zeros2, View.ld_unit_zero (S := S16) zeros1]
  rw [whole3_1, whole3_2, whole3_3, whole3_4]
  refine funext fun (j : S5000x16.Idx) => ?_
  obtain ⟨p, q, rfl⟩ : ∃ (p : Fin 5000) (q : Fin 16), j = ix2 p q := ⟨j 0, j 1, eq_ix2 j⟩
  refine (pay3_rows (rows3_0 V c t ht) (V c main_arg15) (V c main_arg16) (V c main_arg17) (V c main_arg18) p q).trans ?_
  show head (F := Ideal) (V c main_v47) (V c main_arg15) (V c main_arg16) (V c main_arg17) (V c main_arg18) (ix2 (blockRow t.val ht p) q)
    = head (F := Ideal) (V c main_v47) (V c main_arg15) (V c main_arg16) (V c main_arg17) (V c main_arg18) (((cfg3.win 5).blk t).view.emb (ix2 p q))
  congr 1
  funext a; apply Fin.ext
  match a with
  | ⟨0, _⟩ => show t.val * 5000 + p.val = win3_5.index t (0 : Fin 2) * 5000 + 1 * p.val; omega
  | ⟨1, _⟩ => show q.val = win3_5.index t (1 : Fin 2) * 16 + 1 * q.val; omega

/-- An index of the output array is in point t's block iff each coordinate is in the block's range on its axis. -/
theorem mem_blk3 (t : Fin cfg3.N) (i : S100000x16.Idx) :
    i ∈ ((cfg3.win 5).blk t).view.set ↔ ∀ a : Fin 2, win3_5.index t a * S5000x16.size a ≤ (i a).val ∧ (i a).val < win3_5.index t a * S5000x16.size a + S5000x16.size a := by
  show i ∈ ((View.whole main_v48).slice (win3_5.rect t)).set ↔ _
  rw [View.set_slice_whole, Rect.mem_set_unit]
  exact Iff.rfl

/-- Row r of the output array is in the block of point r / 5000. -/
theorem cover3 (i : S100000x16.Idx) : ∃ t : Fin cfg3.N, (cfg3.win 5).flush t = true ∧ i ∈ ((cfg3.win 5).blk t).view.set := by
  have hi0 : (i 0).val < 100000 := (i 0).isLt
  have hi1 : (i 1).val < 16 := (i 1).isLt
  have hN : cfg3.N = 20 := N_3
  refine ⟨⟨(i 0).val / 5000, by rw [hN]; omega⟩, flush3_5 _, ?_⟩
  rw [mem_blk3]
  obtain ⟨-, -, -, -, -, -, -, -, e0, e1⟩ := index_facts3 ⟨(i 0).val / 5000, by rw [hN]; omega⟩
  intro a
  match a with
  | ⟨0, _⟩ =>
    show win3_5.index _ (0 : Fin 2) * 5000 ≤ (i 0).val ∧ (i 0).val < win3_5.index _ (0 : Fin 2) * 5000 + 5000
    rw [e0]; show (i 0).val / 5000 * 5000 ≤ (i 0).val ∧ (i 0).val < (i 0).val / 5000 * 5000 + 5000; omega
  | ⟨1, _⟩ =>
    show win3_5.index _ (1 : Fin 2) * 16 ≤ (i 1).val ∧ (i 1).val < win3_5.index _ (1 : Fin 2) * 16 + 16
    rw [e1]; omega

/-- The head. -/
theorem final3 (c : Dev nD) : ((dat3 (F := Ideal) V c).arrAt 5 cfg3.N : FVec Ideal SNx16 .f32)
    = head (F := Ideal) (V c main_v47) (V c main_arg15) (V c main_arg16) (V c main_arg17) (V c main_arg18) :=
  (dat3 V c).arrAt_eq_of_cover 5 _ (fun t _ => flushed3_eq V c t) cover3

end Cert.Sage

end
-- ==== Proof.Regions.lean ====
/-
  What each of the four tiled calls leaves in its output array: the whole-array layer of the arrays it reads.

  A call walks twenty blocks of 5000 rows. At a block it reads the same 5000 rows of its two matrix operands and the
  whole weight arrays, and writes those rows of the result; a layer is row-wise, so the rows it writes are those rows of
  the whole-array layer, and the twenty blocks cover the array. One module per call: final0, final1, final2 for the
  three convolution calls and final3 for the head.
-/
import proofs.«429018_j42013370089829_2_alg».proof.Proof.Regions0
import proofs.«429018_j42013370089829_2_alg».proof.Proof.Regions1
import proofs.«429018_j42013370089829_2_alg».proof.Proof.Regions2
import proofs.«429018_j42013370089829_2_alg».proof.Proof.Regions3
-- ==== Proof.Boundaries.lean ====
/-
  The contents of the idealized program's buffers at its last boundary, as whole-array functions of the arguments.

  The program alternates stretches of host operations with tiled calls. A stretch computes the neighbour average of the
  current hidden state (the filling read of the source rows, the accumulation over the targets, the division by the
  degrees); a call maps the average and the hidden state through a layer. Walking the boundaries from the launch to the
  return gives the three hidden states and the head's result.
-/
import proofs.«429018_j42013370089829_2_alg».proof.Proof.Regions

set_option maxRecDepth 16384

noncomputable section

namespace Cert.Sage

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg)

/-- The sources and the targets of the edges, as the program reads them off its second argument. -/
def kSrc (c : Dev nD) : IVec SE 32 := edgeRow 0 (by decide) (by decide) (m ((c : Thread nD τ).loc main_arg1))
def kDst (c : Dev nD) : IVec SE 32 := edgeRow 1 (by decide) (by decide) (m ((c : Thread nD τ).loc main_arg1))

/-- The hidden state after the first layer. -/
def kH1 (c : Dev nD) : FVec Ideal SNxD .f32 :=
  layerLN (aggK (m ((c : Thread nD τ).loc main_arg0)) (kSrc m c) (kDst m c)) (m ((c : Thread nD τ).loc main_arg0))
    (m ((c : Thread nD τ).loc main_arg2)) (m ((c : Thread nD τ).loc main_arg3)) (m ((c : Thread nD τ).loc main_arg4))
    (m ((c : Thread nD τ).loc main_arg11)) (m ((c : Thread nD τ).loc main_arg12))

/-- After the second. -/
def kH2 (c : Dev nD) : FVec Ideal SNxD .f32 :=
  layerLN (aggK (kH1 m c) (kSrc m c) (kDst m c)) (kH1 m c)
    (m ((c : Thread nD τ).loc main_arg5)) (m ((c : Thread nD τ).loc main_arg6)) (m ((c : Thread nD τ).loc main_arg7))
    (m ((c : Thread nD τ).loc main_arg13)) (m ((c : Thread nD τ).loc main_arg14))

/-- After the third: the first result. -/
def kH3 (c : Dev nD) : FVec Ideal SNxD .f32 :=
  layerPlain (aggK (kH2 m c) (kSrc m c) (kDst m c)) (kH2 m c)
    (m ((c : Thread nD τ).loc main_arg8)) (m ((c : Thread nD τ).loc main_arg9)) (m ((c : Thread nD τ).loc main_arg10))

/-- The head's result: the second result. -/
def kOut (c : Dev nD) : FVec Ideal SNx16 .f32 :=
  head (kH3 m c) (m ((c : Thread nD τ).loc main_arg15)) (m ((c : Thread nD τ).loc main_arg16))
    (m ((c : Thread nD τ).loc main_arg17)) (m ((c : Thread nD τ).loc main_arg18))

/-! ## What each stretch of host operations computes, at any contents before it -/

section Stretches

variable (U : Valuation τ sig (Elt Ideal))

/-- The first stretch cuts the two rows off the edge list: the sources. -/
theorem src_of_hostOps0 :
    (StableHlo.after hostOps0 U (Proc.devRef .tc main_v1) : IVec SE 32)
      = edgeRow 0 (by decide) (by decide) (U (Proc.devRef .tc main_arg1)) := by
  after_results
  rfl
/-- The targets. -/
theorem dst_of_hostOps0 :
    (StableHlo.after hostOps0 U (Proc.devRef .tc main_v3) : IVec SE 32)
      = edgeRow 1 (by decide) (by decide) (U (Proc.devRef .tc main_arg1)) := by
  after_results
  rfl

/-- Contents moved to a reference's own type and back are the contents. -/
theorem ofBuf_toBuf {T : BufTy} (x : StableHlo.TRef sig T) (v : T.Contents (Elt Ideal)) : x.ofBuf (x.toBuf v) = v := by
  obtain ⟨r, h, h1, h2⟩ := x; subst h; rfl

/-- The filling read, spelt with the program's own shape facts. -/
theorem take_shape (H : FVec Ideal SNxD .f32) (s : IVec SE 32) :
  select
      (broadcastInDim S600000x128 ![0] bcast_S600000_S600000x128_0
        (Host.reduce IntOp.andi
          (andi
            (cmpi CmpIPredicate.sge
              (broadcastInDim S600000x1 ![0] bcast_S600000_S600000x1_0
                (select
                  (cmpi CmpIPredicate.slt s
                    (broadcastInDim S600000 ![] bcast_S_S600000 (constantI S_ 32 0#32)))
                  (addi s
                    (broadcastInDim S600000 ![] bcast_S_S600000 (constantI S_ 32 100000#32)))
                  s))
              (broadcastInDim S600000x1 ![] bcast_S_S600000x1 (constantI S_ 32 0#32)))
            (cmpi CmpIPredicate.sle
              (broadcastInDim S600000x1 ![0] bcast_S600000_S600000x1_0
                (select
                  (cmpi CmpIPredicate.slt s
                    (broadcastInDim S600000 ![] bcast_S_S600000 (constantI S_ 32 0#32)))
                  (addi s
                    (broadcastInDim S600000 ![] bcast_S_S600000 (constantI S_ 32 100000#32)))
                  s))
              (broadcastInDim S600000x1 ![0, 1] bcast_S1x1_S600000x1_0_1
                (broadcastInDim S1x1 ![1] bcast_S1_S1x1_1 (constantI S1 32 99999#32)))))
          (constantI S_ 1 1#1) reducesTo_S600000x1_S600000_d1 h_S_))
      (Host.gather gather_S100000x128_S600000x1_S600000x128_1_0_n_n_0_1_1128 H
        (broadcastInDim S600000x1 ![0] bcast_S600000_S600000x1_0
          (select
            (cmpi CmpIPredicate.slt s
              (broadcastInDim S600000 ![] bcast_S_S600000 (constantI S_ 32 0#32)))
            (addi s (broadcastInDim S600000 ![] bcast_S_S600000 (constantI S_ 32 100000#32)))
            s)))
      (broadcastInDim S600000x128 ![] bcast_S_S600000x128 (constant (F := Ideal) S_ FTy.f32 2143289344#32)) =
    gatherK (F := Ideal) H s := by
  rfl

/-- The filling read of the argument's rows at the sources. -/
theorem take_of_hostOps0_1 :
    (StableHlo.after hostOps0_1 U (Proc.devRef .tc main_v4) : FVec Ideal SExD .f32)
      = gatherK (F := Ideal) (U (Proc.devRef .tc main_arg0)) (U (Proc.devRef .tc main_v1)) := by
  after_results_simp
  simp only [ofBuf_toBuf]
  simp only [StableHlo.TRef.ofBuf, StableHlo.TRef.toBuf, cast_eq]
  exact take_shape _ _
/-- The accumulation of the rows read over the targets, divided by the degrees. -/
theorem mean_of_hostOps0_2 :
    (StableHlo.after hostOps0_2 U (Proc.devRef .tc main_v16) : FVec Ideal SNxD .f32)
      = meanK (F := Ideal) (U (Proc.devRef .tc main_v4)) (U (Proc.devRef .tc main_v3)) := by
  after_results_simp
  rfl
/-- The filling read of the first hidden state's rows. -/
theorem take_of_hostOps1 :
    (StableHlo.after hostOps1 U (Proc.devRef .tc main_v18) : FVec Ideal SExD .f32)
      = gatherK (F := Ideal) (U (Proc.devRef .tc main_v17)) (U (Proc.devRef .tc main_v1)) := by
  after_results_simp
  simp only [ofBuf_toBuf]
  simp only [StableHlo.TRef.ofBuf, StableHlo.TRef.toBuf, cast_eq]
  exact take_shape _ _
/-- Their average over the targets. -/
theorem mean_of_hostOps1_1 :
    (StableHlo.after hostOps1_1 U (Proc.devRef .tc main_v30) : FVec Ideal SNxD .f32)
      = meanK (F := Ideal) (U (Proc.devRef .tc main_v18)) (U (Proc.devRef .tc main_v3)) := by
  after_results_simp
  rfl
/-- The filling read of the second hidden state's rows. -/
theorem take_of_hostOps2 :
    (StableHlo.after hostOps2 U (Proc.devRef .tc main_v32) : FVec Ideal SExD .f32)
      = gatherK (F := Ideal) (U (Proc.devRef .tc main_v31)) (U (Proc.devRef .tc main_v1)) := by
  after_results_simp
  simp only [ofBuf_toBuf]
  simp only [StableHlo.TRef.ofBuf, StableHlo.TRef.toBuf, cast_eq]
  exact take_shape _ _
/-- Their average over the targets. -/
theorem mean_of_hostOps2_1 :
    (StableHlo.after hostOps2_1 U (Proc.devRef .tc main_v44) : FVec Ideal SNxD .f32)
      = meanK (F := Ideal) (U (Proc.devRef .tc main_v32)) (U (Proc.devRef .tc main_v3)) := by
  after_results_simp
  rfl

/-! ## What each stretch writes, and that it leaves every other buffer alone -/

/-- The references the operations of this stretch write. -/
abbrev wr0 : List (Ref sig .tc) := [main_v0, main_v1, main_v2, main_v3]
theorem hostOps0_writes : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem keep0 {r : Ref sig .tc} (h : r ∉ wr0) : StableHlo.after hostOps0 U (Proc.devRef .tc r) = U (Proc.devRef .tc r) :=
  StableHlo.after_of_writes_sub hostOps0 _ hostOps0_writes h

/-- The references the operations of this stretch write. -/
abbrev wr0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem hostOps0_1_writes : (hostOps0_1 : List (HloOp τ sig (Elt Ideal))).Forall fun op => op.writes ⊆ (wr0_1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem keep0_1 {r : Ref sig .tc} (h : r ∉ wr0_1) : StableHlo.after hostOps0_1 U (Proc.devRef .tc r) = U (Proc.devRef .tc r) :=
  StableHlo.after_of_writes_sub hostOps0_1 _ hostOps0_1_writes h

/-- The references the operations of this stretch write. -/
abbrev wr0_2 : List (Ref sig .tc) := [main_cst, main_v5, main_v6, main_v7, main_cst_0, main_v8, main_cst_1, main_v9, main_v10, main_v11, main_cst_2, main_v12, main_v13, main_v14, main_v15, main_v16]
theorem hostOps0_2_writes : (hostOps0_2 : List (HloOp τ sig (Elt Ideal))).Forall fun op => op.writes ⊆ (wr0_2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem keep0_2 {r : Ref sig .tc} (h : r ∉ wr0_2) : StableHlo.after hostOps0_2 U (Proc.devRef .tc r) = U (Proc.devRef .tc r) :=
  StableHlo.after_of_writes_sub hostOps0_2 _ hostOps0_2_writes h

/-- The references the operations of this stretch write. -/
abbrev wr1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v18]
theorem hostOps1_writes : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem keep1 {r : Ref sig .tc} (h : r ∉ wr1) : StableHlo.after hostOps1 U (Proc.devRef .tc r) = U (Proc.devRef .tc r) :=
  StableHlo.after_of_writes_sub hostOps1 _ hostOps1_writes h

/-- The references the operations of this stretch write. -/
abbrev wr1_1 : List (Ref sig .tc) := [main_cst_3, main_v19, main_v20, main_v21, main_cst_4, main_v22, main_cst_5, main_v23, main_v24, main_v25, main_cst_6, main_v26, main_v27, main_v28, main_v29, main_v30]
theorem hostOps1_1_writes : (hostOps1_1 : List (HloOp τ sig (Elt Ideal))).Forall fun op => op.writes ⊆ (wr1_1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem keep1_1 {r : Ref sig .tc} (h : r ∉ wr1_1) : StableHlo.after hostOps1_1 U (Proc.devRef .tc r) = U (Proc.devRef .tc r) :=
  StableHlo.after_of_writes_sub hostOps1_1 _ hostOps1_1_writes h

/-- The references the operations of this stretch write. -/
abbrev wr2 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v32]
theorem hostOps2_writes : (hostOps2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem keep2 {r : Ref sig .tc} (h : r ∉ wr2) : StableHlo.after hostOps2 U (Proc.devRef .tc r) = U (Proc.devRef .tc r) :=
  StableHlo.after_of_writes_sub hostOps2 _ hostOps2_writes h

/-- The references the operations of this stretch write. -/
abbrev wr2_1 : List (Ref sig .tc) := [main_cst_7, main_v33, main_v34, main_v35, main_cst_8, main_v36, main_cst_9, main_v37, main_v38, main_v39, main_cst_10, main_v40, main_v41, main_v42, main_v43, main_v44, main_cst_11, main_v45, main_cst_12, main_v46]
theorem hostOps2_1_writes : (hostOps2_1 : List (HloOp τ sig (Elt Ideal))).Forall fun op => op.writes ⊆ (wr2_1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- A reference the stretch does not write keeps its contents. -/
theorem keep2_1 {r : Ref sig .tc} (h : r ∉ wr2_1) : StableHlo.after hostOps2_1 U (Proc.devRef .tc r) = U (Proc.devRef .tc r) :=
  StableHlo.after_of_writes_sub hostOps2_1 _ hostOps2_1_writes h

end Stretches

/-! ## The layers respect equality of every operand -/

theorem layerLN_congr {A A' X X' : FVec Ideal SNxD .f32} {Wl Wl' Wr Wr' : FVec Ideal SDxD .f32} {bl bl' w w' b b' : FVec Ideal SD .f32}
    (hA : A = A') (hX : X = X') (hWl : Wl = Wl') (hbl : bl = bl') (hWr : Wr = Wr') (hw : w = w') (hb : b = b') :
    layerLN A X Wl bl Wr w b = layerLN A' X' Wl' bl' Wr' w' b' := by
  subst hA hX hWl hbl hWr hw hb; rfl
theorem layerPlain_congr {A A' X X' : FVec Ideal SNxD .f32} {Wl Wl' Wr Wr' : FVec Ideal SDxD .f32} {bl bl' : FVec Ideal SD .f32}
    (hA : A = A') (hX : X = X') (hWl : Wl = Wl') (hbl : bl = bl') (hWr : Wr = Wr') :
    layerPlain A X Wl bl Wr = layerPlain A' X' Wl' bl' Wr' := by
  subst hA hX hWl hbl hWr; rfl
theorem head_congr {H H' : FVec Ideal SNxD .f32} {W1 W1' : FVec Ideal ⟨2, ![50, 128]⟩ .f32} {b1 b1' : FVec Ideal ⟨1, ![50]⟩ .f32}
    {W2 W2' : FVec Ideal ⟨2, ![16, 50]⟩ .f32} {b2 b2' : FVec Ideal ⟨1, ![16]⟩ .f32}
    (hH : H = H') (hW1 : W1 = W1') (hb1 : b1 = b1') (hW2 : W2 = W2') (hb2 : b2 = b2') :
    head H W1 b1 W2 b2 = head H' W1' b1' W2' b2' := by
  subst hH hW1 hb1 hW2 hb2; rfl

/-! ## A buffer nothing writes between two boundaries -/

/-- From the launch to the first call's entry. -/
theorem W3_launch (c : Dev nD) (b : Ref sig .tc) (h0 : b ∉ wr0) (h1 : b ∉ wr0_1) (h2 : b ∉ wr0_2) :
    W3 m ρ c (Proc.devRef .tc b) = W0 m ρ c (Proc.devRef .tc b) :=
  (keep0_2 _ h2).trans ((keep0_1 _ h1).trans (keep0 _ h0))
/-- From the first call's entry to the second's. -/
theorem W6_of_W3 (c : Dev nD) (b : Ref sig .tc) (hr : ∀ w, Pipeline.arrRef spec0 w ≠ b) (h1 : b ∉ wr1) (h2 : b ∉ wr1_1) :
    W6 m ρ c (Proc.devRef .tc b) = W3 m ρ c (Proc.devRef .tc b) :=
  (keep1_1 _ h2).trans ((keep1 _ h1).trans (W4_of_ne m ρ c b hr))
/-- From the second call's entry to the third's. -/
theorem W9_of_W6 (c : Dev nD) (b : Ref sig .tc) (hr : ∀ w, Pipeline.arrRef spec1 w ≠ b) (h1 : b ∉ wr2) (h2 : b ∉ wr2_1) :
    W9 m ρ c (Proc.devRef .tc b) = W6 m ρ c (Proc.devRef .tc b) :=
  (keep2_1 _ h2).trans ((keep2 _ h1).trans (W7_of_ne m ρ c b hr))

/-! ## The sources and the targets, wherever a stretch reads them -/

theorem W1_src (c : Dev nD) : (W1 m ρ c (Proc.devRef .tc main_v1) : IVec SE 32) = kSrc m c := src_of_hostOps0 (W0 m ρ c)
theorem W1_dst (c : Dev nD) : (W1 m ρ c (Proc.devRef .tc main_v3) : IVec SE 32) = kDst m c := dst_of_hostOps0 (W0 m ρ c)
theorem W2_dst (c : Dev nD) : (W2 m ρ c (Proc.devRef .tc main_v3) : IVec SE 32) = kDst m c :=
  (keep0_1 _ (by decide)).trans (W1_dst m ρ c)
theorem W4_src (c : Dev nD) : (W4 m ρ c (Proc.devRef .tc main_v1) : IVec SE 32) = kSrc m c :=
  (W4_of_ne m ρ c main_v1 (by decide)).trans ((keep0_2 _ (by decide)).trans ((keep0_1 _ (by decide)).trans (W1_src m ρ c)))
theorem W4_dst (c : Dev nD) : (W4 m ρ c (Proc.devRef .tc main_v3) : IVec SE 32) = kDst m c :=
  (W4_of_ne m ρ c main_v3 (by decide)).trans ((keep0_2 _ (by decide)).trans (W2_dst m ρ c))
theorem W5_dst (c : Dev nD) : (W5 m ρ c (Proc.devRef .tc main_v3) : IVec SE 32) = kDst m c :=
  (keep1 _ (by decide)).trans (W4_dst m ρ c)
theorem W7_src (c : Dev nD) : (W7 m ρ c (Proc.devRef .tc main_v1) : IVec SE 32) = kSrc m c :=
  (W7_of_ne m ρ c main_v1 (by decide)).trans ((keep1_1 _ (by decide)).trans ((keep1 _ (by decide)).trans (W4_src m ρ c)))
theorem W7_dst (c : Dev nD) : (W7 m ρ c (Proc.devRef .tc main_v3) : IVec SE 32) = kDst m c :=
  (W7_of_ne m ρ c main_v3 (by decide)).trans ((keep1_1 _ (by decide)).trans (W5_dst m ρ c))
theorem W8_dst (c : Dev nD) : (W8 m ρ c (Proc.devRef .tc main_v3) : IVec SE 32) = kDst m c :=
  (keep2 _ (by decide)).trans (W7_dst m ρ c)

/-! ## The first layer -/

theorem W2_take (c : Dev nD) : (W2 m ρ c (Proc.devRef .tc main_v4) : FVec Ideal SExD .f32)
    = gatherK (F := Ideal) (m ((c : Thread nD τ).loc main_arg0)) (kSrc m c) :=
  (take_of_hostOps0_1 (W1 m ρ c)).trans (congrArg₂ (gatherK (F := Ideal)) (keep0 (W0 m ρ c) (r := main_arg0) (by decide)) (W1_src m ρ c))
theorem W3_agg (c : Dev nD) : (W3 m ρ c (Proc.devRef .tc main_v16) : FVec Ideal SNxD .f32)
    = aggK (F := Ideal) (m ((c : Thread nD τ).loc main_arg0)) (kSrc m c) (kDst m c) :=
  (mean_of_hostOps0_2 (W2 m ρ c)).trans (congrArg₂ (meanK (F := Ideal)) (W2_take m ρ c) (W2_dst m ρ c))
theorem W4_h1 (c : Dev nD) : (W4 m ρ c (Proc.devRef .tc main_v17) : FVec Ideal SNxD .f32) = kH1 m c :=
  (W4_arr m ρ c 7).trans ((final0 (V3 m ρ) c).trans (layerLN_congr (W3_agg m ρ c)
    (W3_launch m ρ c main_arg0 (by decide) (by decide) (by decide)) (W3_launch m ρ c main_arg2 (by decide) (by decide) (by decide))
    (W3_launch m ρ c main_arg3 (by decide) (by decide) (by decide)) (W3_launch m ρ c main_arg4 (by decide) (by decide) (by decide))
    (W3_launch m ρ c main_arg11 (by decide) (by decide) (by decide)) (W3_launch m ρ c main_arg12 (by decide) (by decide) (by decide))))

/-! ## The second layer -/

theorem W5_take (c : Dev nD) : (W5 m ρ c (Proc.devRef .tc main_v18) : FVec Ideal SExD .f32) = gatherK (F := Ideal) (kH1 m c) (kSrc m c) :=
  (take_of_hostOps1 (W4 m ρ c)).trans (congrArg₂ (gatherK (F := Ideal)) (W4_h1 m ρ c) (W4_src m ρ c))
theorem W6_agg (c : Dev nD) : (W6 m ρ c (Proc.devRef .tc main_v30) : FVec Ideal SNxD .f32) = aggK (F := Ideal) (kH1 m c) (kSrc m c) (kDst m c) :=
  (mean_of_hostOps1_1 (W5 m ρ c)).trans (congrArg₂ (meanK (F := Ideal)) (W5_take m ρ c) (W5_dst m ρ c))
theorem W6_h1 (c : Dev nD) : (W6 m ρ c (Proc.devRef .tc main_v17) : FVec Ideal SNxD .f32) = kH1 m c :=
  (keep1_1 _ (by decide)).trans ((keep1 _ (by decide)).trans (W4_h1 m ρ c))
/-- An argument neither the first call nor a stretch before the second writes. -/
theorem W6_launch (c : Dev nD) (b : Ref sig .tc) (hr : ∀ w, Pipeline.arrRef spec0 w ≠ b) (h0 : b ∉ wr0) (h1 : b ∉ wr0_1) (h2 : b ∉ wr0_2)
    (h3 : b ∉ wr1) (h4 : b ∉ wr1_1) : W6 m ρ c (Proc.devRef .tc b) = W0 m ρ c (Proc.devRef .tc b) :=
  (W6_of_W3 m ρ c b hr h3 h4).trans (W3_launch m ρ c b h0 h1 h2)
theorem W7_h2 (c : Dev nD) : (W7 m ρ c (Proc.devRef .tc main_v31) : FVec Ideal SNxD .f32) = kH2 m c :=
  (W7_arr m ρ c 7).trans ((final1 (V6 m ρ) c).trans (layerLN_congr (W6_agg m ρ c) (W6_h1 m ρ c)
    (W6_launch m ρ c main_arg5 (by decide) (by decide) (by decide) (by decide) (by decide) (by decide))
    (W6_launch m ρ c main_arg6 (by decide) (by decide) (by decide) (by decide) (by decide) (by decide))
    (W6_launch m ρ c main_arg7 (by decide) (by decide) (by decide) (by decide) (by decide) (by decide))
    (W6_launch m ρ c main_arg13 (by decide) (by decide) (by decide) (by decide) (by decide) (by decide))
    (W6_launch m ρ c main_arg14 (by decide) (by decide) (by decide) (by decide) (by decide) (by decide))))

/-! ## The third layer -/

theorem W8_take (c : Dev nD) : (W8 m ρ c (Proc.devRef .tc main_v32) : FVec Ideal SExD .f32) = gatherK (F := Ideal) (kH2 m c) (kSrc m c) :=
  (take_of_hostOps2 (W7 m ρ c)).trans (congrArg₂ (gatherK (F := Ideal)) (W7_h2 m ρ c) (W7_src m ρ c))
theorem W9_agg (c : Dev nD) : (W9 m ρ c (Proc.devRef .tc main_v44) : FVec Ideal SNxD .f32) = aggK (F := Ideal) (kH2 m c) (kSrc m c) (kDst m c) :=
  (mean_of_hostOps2_1 (W8 m ρ c)).trans (congrArg₂ (meanK (F := Ideal)) (W8_take m ρ c) (W8_dst m ρ c))
theorem W9_h2 (c : Dev nD) : (W9 m ρ c (Proc.devRef .tc main_v31) : FVec Ideal SNxD .f32) = kH2 m c :=
  (keep2_1 _ (by decide)).trans ((keep2 _ (by decide)).trans (W7_h2 m ρ c))
/-- An argument neither of the first two calls nor a stretch before the third writes. -/
theorem W9_launch (c : Dev nD) (b : Ref sig .tc) (hr0 : ∀ w, Pipeline.arrRef spec0 w ≠ b) (hr1 : ∀ w, Pipeline.arrRef spec1 w ≠ b)
    (h0 : b ∉ wr0) (h1 : b ∉ wr0_1) (h2 : b ∉ wr0_2) (h3 : b ∉ wr1) (h4 : b ∉ wr1_1) (h5 : b ∉ wr2) (h6 : b ∉ wr2_1) :
    W9 m ρ c (Proc.devRef .tc b) = W0 m ρ c (Proc.devRef .tc b) :=
  (W9_of_W6 m ρ c b hr1 h5 h6).trans (W6_launch m ρ c b hr0 h0 h1 h2 h3 h4)
theorem W10_h3 (c : Dev nD) : (W10 m ρ c (Proc.devRef .tc main_v47) : FVec Ideal SNxD .f32) = kH3 m c :=
  (W10_arr m ρ c 7).trans ((final2 (V9 m ρ) c).trans (layerPlain_congr (W9_agg m ρ c) (W9_h2 m ρ c)
    (W9_launch m ρ c main_arg8 (by decide) (by decide) (by decide) (by decide) (by decide) (by decide) (by decide) (by decide) (by decide))
    (W9_launch m ρ c main_arg9 (by decide) (by decide) (by decide) (by decide) (by decide) (by decide) (by decide) (by decide) (by decide))
    (W9_launch m ρ c main_arg10 (by decide) (by decide) (by decide) (by decide) (by decide) (by decide) (by decide) (by decide) (by decide))))

/-! ## The head -/

/-- An argument none of the first three calls and no stretch writes. -/
theorem W10_launch (c : Dev nD) (b : Ref sig .tc) (hr0 : ∀ w, Pipeline.arrRef spec0 w ≠ b) (hr1 : ∀ w, Pipeline.arrRef spec1 w ≠ b)
    (hr2 : ∀ w, Pipeline.arrRef spec2 w ≠ b)
    (h0 : b ∉ wr0) (h1 : b ∉ wr0_1) (h2 : b ∉ wr0_2) (h3 : b ∉ wr1) (h4 : b ∉ wr1_1) (h5 : b ∉ wr2) (h6 : b ∉ wr2_1) :
    W10 m ρ c (Proc.devRef .tc b) = W0 m ρ c (Proc.devRef .tc b) :=
  (W10_of_ne m ρ c b hr2).trans (W9_launch m ρ c b hr0 hr1 h0 h1 h2 h3 h4 h5 h6)

/-- At the return the first result buffer holds the third hidden state. -/
theorem W11_emb (c : Dev nD) : W11 m ρ c (Proc.devRef .tc main_v47) = kH3 m c :=
  ((W11_arr m ρ c 0).trans (((dat3 (V10 m ρ) c).arrAt_in 0 rfl _).trans (A_eq3 (V10 m ρ) c 0))).trans (W10_h3 m ρ c)

/-- At the return the second result buffer holds the head's result. -/
theorem W11_out (c : Dev nD) : W11 m ρ c (Proc.devRef .tc main_v48) = kOut m c :=
  (W11_arr m ρ c 5).trans ((final3 (V10 m ρ) c).trans (head_congr (W10_h3 m ρ c)
    (W10_launch m ρ c main_arg15 (by decide) (by decide) (by decide) (by decide) (by decide) (by decide) (by decide) (by decide) (by decide) (by decide))
    (W10_launch m ρ c main_arg16 (by decide) (by decide) (by decide) (by decide) (by decide) (by decide) (by decide) (by decide) (by decide) (by decide))
    (W10_launch m ρ c main_arg17 (by decide) (by decide) (by decide) (by decide) (by decide) (by decide) (by decide) (by decide) (by decide) (by decide))
    (W10_launch m ρ c main_arg18 (by decide) (by decide) (by decide) (by decide) (by decide) (by decide) (by decide) (by decide) (by decide) (by decide))))

end Cert.Sage

end
-- ==== Proof.RefSideKept.lean ====
/-
  Which buffers the reference's operations leave alone: no operation writes an argument; the second part does not
  write the rows of sources and targets the first part made; the last part does not write the first result.
-/
import proofs.«429018_j42013370089829_2_alg».proof.Proof.RefRunP
import Idealize.ShloMosaic.PureOps.Ideal

set_option maxRecDepth 16384

noncomputable section

namespace Cert.Sage

open Idealize.ShloMosaic Idealize.ShloMosaic.TcCoe Idealize.ShloMosaic.StableHlo Idealize.SL.Sem Cert.ReferenceIdeal Cert.Sage.Ref

/-- One line after another: the second from what the first leaves. -/
theorem after_parts (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- A line cut after its first n operations. -/
theorem after_cut (l : List (HloOp τ sig (Elt Ideal))) (n : Nat) (V : Valuation τ sig (Elt Ideal)) :
    after l V = after (l.drop n) (after (l.take n) V) := by
  rw [← after_parts, List.take_append_drop]

/-- The nineteen argument buffers. -/
def argRefs : List (Ref sig .tc) :=
  [main_arg0, main_arg1, main_arg2, main_arg3, main_arg4, main_arg5, main_arg6, main_arg7, main_arg8, main_arg9,
    main_arg10, main_arg11, main_arg12, main_arg13, main_arg14, main_arg15, main_arg16, main_arg17, main_arg18]

set_option maxHeartbeats 4000000 in
/-- No operation of the line writes an argument: each writes one buffer, and that buffer is not among the arguments. -/
theorem writes_no_arg : (ops (F := Ideal)).Forall fun op => ∀ r ∈ argRefs, Proc.devRef (τ := τ) .tc r ∉ op.writes := by
  simp only [ops, List.Forall, nullary_writes, unary_writes, binary_writes, ternary_writes, reshape_writes, Finset.mem_singleton]
  repeat' apply And.intro
  all_goals exact fun r hr e => (by decide : _ ∉ argRefs) (Proc.devRef_injective _ e ▸ hr)

/-- So an argument keeps its contents through any stretch of the line. -/
theorem kept_arg (l : List (HloOp τ sig (Elt Ideal))) (hl : ∀ op ∈ l, op ∈ ops (F := Ideal)) (V : Valuation τ sig (Elt Ideal))
    (r : Ref sig .tc) (hr : r ∈ argRefs) : after l V (Proc.devRef .tc r) = V (Proc.devRef .tc r) :=
  after_of_forall_not_mem l V fun op hop => List.forall_iff_forall_mem.mp writes_no_arg op (hl op hop) r hr

theorem opsA_sub : ∀ op ∈ opsA (F := Ideal), op ∈ ops (F := Ideal) := fun op h => by
  rw [ops_split]; exact List.mem_append_left _ h
theorem opsB_sub : ∀ op ∈ opsB (F := Ideal), op ∈ ops (F := Ideal) := fun op h => by
  rw [ops_split]; exact List.mem_append_right _ (List.mem_append_left _ h)
theorem opsC_sub : ∀ op ∈ opsC (F := Ideal), op ∈ ops (F := Ideal) := fun op h => by
  rw [ops_split]; exact List.mem_append_right _ (List.mem_append_right _ (List.mem_append_left _ h))
theorem opsD_sub : ∀ op ∈ opsD (F := Ideal), op ∈ ops (F := Ideal) := fun op h => by
  rw [ops_split]; exact List.mem_append_right _ (List.mem_append_right _ (List.mem_append_right _ h))

/-- A stretch of a stretch of the line is a stretch of the line. -/
theorem sub_take {l : List (HloOp τ sig (Elt Ideal))} (h : ∀ op ∈ l, op ∈ ops (F := Ideal)) (n : Nat) :
    ∀ op ∈ l.take n, op ∈ ops (F := Ideal) := fun op ho => h op (List.mem_of_mem_take ho)
theorem sub_drop {l : List (HloOp τ sig (Elt Ideal))} (h : ∀ op ∈ l, op ∈ ops (F := Ideal)) (n : Nat) :
    ∀ op ∈ l.drop n, op ∈ ops (F := Ideal) := fun op ho => h op (List.mem_of_mem_drop ho)

variable (V : Valuation τ sig (Elt Ideal))

/-- The second part leaves the row of sources where the first part put it, -/
theorem keptB_v1 : after (opsB (F := Ideal)) V (Proc.devRef .tc main_v1) = V (Proc.devRef .tc main_v1) := by
  refine after_of_forall_not_mem _ _ (List.forall_iff_forall_mem.mp ?_)
  simp only [opsB, List.Forall, nullary_writes, unary_writes, binary_writes, ternary_writes, reshape_writes, Finset.mem_singleton]
  repeat' apply And.intro
  all_goals exact devRef_ne_of_ne (by decide)

/-- and the row of targets; -/
theorem keptB_v3 : after (opsB (F := Ideal)) V (Proc.devRef .tc main_v3) = V (Proc.devRef .tc main_v3) := by
  refine after_of_forall_not_mem _ _ (List.forall_iff_forall_mem.mp ?_)
  simp only [opsB, List.Forall, nullary_writes, unary_writes, binary_writes, ternary_writes, reshape_writes, Finset.mem_singleton]
  repeat' apply And.intro
  all_goals exact devRef_ne_of_ne (by decide)

/-- the last part leaves the first result. -/
theorem keptD_v132 : after (opsD (F := Ideal)) V (Proc.devRef .tc main_v132) = V (Proc.devRef .tc main_v132) := by
  refine after_of_forall_not_mem _ _ (List.forall_iff_forall_mem.mp ?_)
  simp only [opsD, List.Forall, nullary_writes, unary_writes, binary_writes, ternary_writes, reshape_writes, Finset.mem_singleton]
  repeat' apply And.intro
  all_goals exact devRef_ne_of_ne (by decide)

end Cert.Sage

end
-- ==== Proof.RefSideA.lean ====
/-
  The reference's first part, read from any buffer contents: it cuts the edge list into its row of sources and its row
  of targets, averages the features over the incoming edges and applies the first layer with its normalisation.

  The part is read in four stretches, each from the buffers the stretch before left: the two edge rows (operations 1 to
  4), the neighbour average (5 to 28), the two affine images added and rectified (29 to 39), the normalisation (40 to 68).
-/
import proofs.«429018_j42013370089829_2_alg».proof.Proof.RefSideKept
import proofs.«429018_j42013370089829_2_alg».proof.Proof.Spec

set_option maxRecDepth 16384

noncomputable section

namespace Cert.Sage

open Idealize.ShloMosaic Idealize.ShloMosaic.TcCoe Idealize.ShloMosaic.StableHlo Idealize.SL.Sem Cert.ReferenceIdeal Cert.Sage.Ref

variable (V : Valuation τ sig (Elt Ideal))

/-- The row of sources. -/
theorem partA_v1 : (after (opsA (F := Ideal)) V (Proc.devRef .tc main_v1) : IVec SE 32)
    = edgeRow 0 (by decide) (by decide) (V (Proc.devRef .tc main_arg1)) := by
  after_results_simp <;> rfl

/-- The row of targets. -/
theorem partA_v3 : (after (opsA (F := Ideal)) V (Proc.devRef .tc main_v3) : IVec SE 32)
    = edgeRow 1 (by decide) (by decide) (V (Proc.devRef .tc main_arg1)) := by
  after_results_simp <;> rfl

/-- The four stretches. -/
abbrev edgesA : List (HloOp τ sig (Elt Ideal)) := (opsA (F := Ideal)).take 4
abbrev aggA : List (HloOp τ sig (Elt Ideal)) := ((opsA (F := Ideal)).drop 4).take 24
abbrev sageA : List (HloOp τ sig (Elt Ideal)) := (((opsA (F := Ideal)).drop 4).drop 24).take 11
abbrev normA : List (HloOp τ sig (Elt Ideal)) := (((opsA (F := Ideal)).drop 4).drop 24).drop 11

theorem edgesA_sub : ∀ op ∈ edgesA, op ∈ ops (F := Ideal) := sub_take opsA_sub 4
theorem aggA_sub : ∀ op ∈ aggA, op ∈ ops (F := Ideal) := sub_take (sub_drop opsA_sub 4) 24
theorem sageA_sub : ∀ op ∈ sageA, op ∈ ops (F := Ideal) := sub_take (sub_drop (sub_drop opsA_sub 4) 24) 11

/-- The first stretch leaves the two edge rows. -/
theorem edgesA_v1 : (after edgesA V (Proc.devRef .tc main_v1) : IVec SE 32)
    = edgeRow 0 (by decide) (by decide) (V (Proc.devRef .tc main_arg1)) := by
  simp only [edgesA, opsA, List.take_succ_cons, List.take_zero]
  after_results_simp <;> rfl

theorem edgesA_v3 : (after edgesA V (Proc.devRef .tc main_v3) : IVec SE 32)
    = edgeRow 1 (by decide) (by decide) (V (Proc.devRef .tc main_arg1)) := by
  simp only [edgesA, opsA, List.take_succ_cons, List.take_zero]
  after_results_simp <;> rfl

/-- The second the neighbour average of the features, from the edge rows where the first left them. -/
theorem aggA_v21 : (after aggA V (Proc.devRef .tc main_v21) : FVec Ideal SNxD .f32)
    = aggR (F := Ideal) (V (Proc.devRef .tc main_arg0)) (V (Proc.devRef .tc main_v1)) (V (Proc.devRef .tc main_v3)) := by
  simp only [aggA, opsA, List.take_succ_cons, List.take_zero, List.drop_succ_cons, List.drop_zero]
  after_results_simp <;> rfl

/-- The third the two affine images, of the average and of the features, added and rectified. -/
theorem sageA_v30 : (after sageA V (Proc.devRef .tc main_v30) : FVec Ideal SNxD .f32)
    = relu (F := Ideal) (sage (V (Proc.devRef .tc main_v21)) (V (Proc.devRef .tc main_arg0)) (V (Proc.devRef .tc main_arg2))
        (V (Proc.devRef .tc main_arg3)) (V (Proc.devRef .tc main_arg4))) (by decide) := by
  simp only [sageA, opsA, List.take_succ_cons, List.take_zero, List.drop_succ_cons, List.drop_zero]
  after_results_simp
  simp only [TRef.ofBuf, TRef.toBuf, cast_cast, cast_eq]
  rfl

/-- The fourth the normalisation of each row. -/
theorem normA_v54 : (after normA V (Proc.devRef .tc main_v54) : FVec Ideal SNxD .f32)
    = layerNorm (F := Ideal) (V (Proc.devRef .tc main_v30)) (V (Proc.devRef .tc main_arg11)) (V (Proc.devRef .tc main_arg12)) := by
  simp only [normA, opsA, List.drop_succ_cons, List.drop_zero]
  after_results_simp <;> rfl

/-- The first layer of the features and their neighbour average. -/
theorem partA_v54 : (after (opsA (F := Ideal)) V (Proc.devRef .tc main_v54) : FVec Ideal SNxD .f32)
    = layerLN (F := Ideal)
        (aggR (F := Ideal) (V (Proc.devRef .tc main_arg0)) (edgeRow 0 (by decide) (by decide) (V (Proc.devRef .tc main_arg1)))
          (edgeRow 1 (by decide) (by decide) (V (Proc.devRef .tc main_arg1))))
        (V (Proc.devRef .tc main_arg0)) (V (Proc.devRef .tc main_arg2)) (V (Proc.devRef .tc main_arg3)) (V (Proc.devRef .tc main_arg4))
        (V (Proc.devRef .tc main_arg11)) (V (Proc.devRef .tc main_arg12)) := by
  rw [after_cut (opsA (F := Ideal)) 4, after_cut ((opsA (F := Ideal)).drop 4) 24, after_cut (((opsA (F := Ideal)).drop 4).drop 24) 11]
  show after normA (after sageA (after aggA (after edgesA V))) (Proc.devRef .tc main_v54) = _
  rw [normA_v54, sageA_v30, aggA_v21, edgesA_v1, edgesA_v3,
    kept_arg sageA sageA_sub _ main_arg11 (by decide), kept_arg aggA aggA_sub _ main_arg11 (by decide), kept_arg edgesA edgesA_sub V main_arg11 (by decide),
    kept_arg sageA sageA_sub _ main_arg12 (by decide), kept_arg aggA aggA_sub _ main_arg12 (by decide), kept_arg edgesA edgesA_sub V main_arg12 (by decide),
    kept_arg aggA aggA_sub _ main_arg0 (by decide), kept_arg edgesA edgesA_sub V main_arg0 (by decide),
    kept_arg aggA aggA_sub _ main_arg2 (by decide), kept_arg edgesA edgesA_sub V main_arg2 (by decide),
    kept_arg aggA aggA_sub _ main_arg3 (by decide), kept_arg edgesA edgesA_sub V main_arg3 (by decide),
    kept_arg aggA aggA_sub _ main_arg4 (by decide), kept_arg edgesA edgesA_sub V main_arg4 (by decide)]
  rfl

end Cert.Sage

end
-- ==== Proof.RefSideB.lean ====
/-
  The reference's second part, read from any buffer contents: it averages the first layer's result over the incoming
  edges, the rows of sources and targets taken from where the first part left them, and applies the second layer with its
  normalisation.

  The part is read in three stretches, each from the buffers the stretch before left: the neighbour average (operations
  1 to 24 of the part), the two affine images added and rectified (25 to 35), the normalisation (36 to 64).
-/
import proofs.«429018_j42013370089829_2_alg».proof.Proof.RefSideKept
import proofs.«429018_j42013370089829_2_alg».proof.Proof.Spec

set_option maxRecDepth 16384

noncomputable section

namespace Cert.Sage

open Idealize.ShloMosaic Idealize.ShloMosaic.TcCoe Idealize.ShloMosaic.StableHlo Idealize.SL.Sem Cert.ReferenceIdeal Cert.Sage.Ref

variable (V : Valuation τ sig (Elt Ideal))

/-- The three stretches. -/
abbrev aggB : List (HloOp τ sig (Elt Ideal)) := (opsB (F := Ideal)).take 24
abbrev sageB : List (HloOp τ sig (Elt Ideal)) := ((opsB (F := Ideal)).drop 24).take 11
abbrev normB : List (HloOp τ sig (Elt Ideal)) := ((opsB (F := Ideal)).drop 24).drop 11

theorem aggB_sub : ∀ op ∈ aggB, op ∈ ops (F := Ideal) := sub_take opsB_sub 24
theorem sageB_sub : ∀ op ∈ sageB, op ∈ ops (F := Ideal) := sub_take (sub_drop opsB_sub 24) 11

/-- The first stretch leaves the neighbour average of the hidden state, -/
theorem aggB_v72 : (after aggB V (Proc.devRef .tc main_v72) : FVec Ideal SNxD .f32)
    = aggR (F := Ideal) (V (Proc.devRef .tc main_v54)) (V (Proc.devRef .tc main_v1)) (V (Proc.devRef .tc main_v3)) := by
  simp only [aggB, opsB, List.take_succ_cons, List.take_zero]
  after_results_simp <;> rfl

/-- and the hidden state where it was. -/
theorem aggB_keeps_v54 : after aggB V (Proc.devRef .tc main_v54) = V (Proc.devRef .tc main_v54) := by
  refine after_of_forall_not_mem _ _ (List.forall_iff_forall_mem.mp ?_)
  simp only [aggB, opsB, List.take_succ_cons, List.take_zero, List.Forall, nullary_writes, unary_writes, binary_writes, ternary_writes,
    reshape_writes, Finset.mem_singleton]
  repeat' apply And.intro
  all_goals exact devRef_ne_of_ne (by decide)

/-- The second the two affine images, of the average and of the hidden state, added and rectified. -/
theorem sageB_v81 : (after sageB V (Proc.devRef .tc main_v81) : FVec Ideal SNxD .f32)
    = relu (F := Ideal) (sage (V (Proc.devRef .tc main_v72)) (V (Proc.devRef .tc main_v54)) (V (Proc.devRef .tc main_arg5))
        (V (Proc.devRef .tc main_arg6)) (V (Proc.devRef .tc main_arg7))) (by decide) := by
  simp only [sageB, opsB, List.take_succ_cons, List.take_zero, List.drop_succ_cons, List.drop_zero]
  after_results_simp
  simp only [TRef.ofBuf, TRef.toBuf, cast_cast, cast_eq]
  rfl

/-- The third the normalisation of each row. -/
theorem normB_v105 : (after normB V (Proc.devRef .tc main_v105) : FVec Ideal SNxD .f32)
    = layerNorm (F := Ideal) (V (Proc.devRef .tc main_v81)) (V (Proc.devRef .tc main_arg13)) (V (Proc.devRef .tc main_arg14)) := by
  simp only [normB, opsB, List.drop_succ_cons, List.drop_zero]
  after_results_simp <;> rfl

/-- The second layer of a hidden state and its neighbour average. -/
theorem partB_v105 : (after (opsB (F := Ideal)) V (Proc.devRef .tc main_v105) : FVec Ideal SNxD .f32)
    = layerLN (F := Ideal)
        (aggR (F := Ideal) (V (Proc.devRef .tc main_v54)) (V (Proc.devRef .tc main_v1)) (V (Proc.devRef .tc main_v3)))
        (V (Proc.devRef .tc main_v54)) (V (Proc.devRef .tc main_arg5)) (V (Proc.devRef .tc main_arg6)) (V (Proc.devRef .tc main_arg7))
        (V (Proc.devRef .tc main_arg13)) (V (Proc.devRef .tc main_arg14)) := by
  rw [after_cut (opsB (F := Ideal)) 24, after_cut ((opsB (F := Ideal)).drop 24) 11]
  show after normB (after sageB (after aggB V)) (Proc.devRef .tc main_v105) = _
  rw [normB_v105, sageB_v81, aggB_v72, aggB_keeps_v54,
    kept_arg sageB sageB_sub _ main_arg13 (by decide), kept_arg aggB aggB_sub V main_arg13 (by decide),
    kept_arg sageB sageB_sub _ main_arg14 (by decide), kept_arg aggB aggB_sub V main_arg14 (by decide),
    kept_arg aggB aggB_sub V main_arg5 (by decide), kept_arg aggB aggB_sub V main_arg6 (by decide),
    kept_arg aggB aggB_sub V main_arg7 (by decide)]
  rfl

end Cert.Sage

end
-- ==== Proof.RefSideC.lean ====
/-
  The reference's third part, read from any buffer contents: it averages the second layer's result over the incoming
  edges and applies the third layer, which rectifies and does not normalise.

  The part is read in two stretches: the neighbour average (operations 1 to 24 of the part), then the two affine images
  added and rectified (25 to 35).
-/
import proofs.«429018_j42013370089829_2_alg».proof.Proof.RefSideKept
import proofs.«429018_j42013370089829_2_alg».proof.Proof.Spec

set_option maxRecDepth 16384

noncomputable section

namespace Cert.Sage

open Idealize.ShloMosaic Idealize.ShloMosaic.TcCoe Idealize.ShloMosaic.StableHlo Idealize.SL.Sem Cert.ReferenceIdeal Cert.Sage.Ref

variable (V : Valuation τ sig (Elt Ideal))

/-- The two stretches. -/
abbrev aggC : List (HloOp τ sig (Elt Ideal)) := (opsC (F := Ideal)).take 24
abbrev sageC : List (HloOp τ sig (Elt Ideal)) := (opsC (F := Ideal)).drop 24

theorem aggC_sub : ∀ op ∈ aggC, op ∈ ops (F := Ideal) := sub_take opsC_sub 24

/-- The first stretch leaves the neighbour average of the hidden state, -/
theorem aggC_v123 : (after aggC V (Proc.devRef .tc main_v123) : FVec Ideal SNxD .f32)
    = aggR (F := Ideal) (V (Proc.devRef .tc main_v105)) (V (Proc.devRef .tc main_v1)) (V (Proc.devRef .tc main_v3)) := by
  simp only [aggC, opsC, List.take_succ_cons, List.take_zero]
  after_results_simp <;> rfl

/-- and the hidden state where it was. -/
theorem aggC_keeps_v105 : after aggC V (Proc.devRef .tc main_v105) = V (Proc.devRef .tc main_v105) := by
  refine after_of_forall_not_mem _ _ (List.forall_iff_forall_mem.mp ?_)
  simp only [aggC, opsC, List.take_succ_cons, List.take_zero, List.Forall, nullary_writes, unary_writes, binary_writes, ternary_writes,
    reshape_writes, Finset.mem_singleton]
  repeat' apply And.intro
  all_goals exact devRef_ne_of_ne (by decide)

/-- The second the two affine images, of the average and of the hidden state, added and rectified. -/
theorem sageC_v132 : (after sageC V (Proc.devRef .tc main_v132) : FVec Ideal SNxD .f32)
    = relu (F := Ideal) (sage (V (Proc.devRef .tc main_v123)) (V (Proc.devRef .tc main_v105)) (V (Proc.devRef .tc main_arg8))
        (V (Proc.devRef .tc main_arg9)) (V (Proc.devRef .tc main_arg10))) (by decide) := by
  simp only [sageC, opsC, List.drop_succ_cons, List.drop_zero]
  after_results_simp
  simp only [TRef.ofBuf, TRef.toBuf, cast_cast, cast_eq]
  rfl

/-- The third layer of a hidden state and its neighbour average. -/
theorem partC_v132 : (after (opsC (F := Ideal)) V (Proc.devRef .tc main_v132) : FVec Ideal SNxD .f32)
    = layerPlain (F := Ideal)
        (aggR (F := Ideal) (V (Proc.devRef .tc main_v105)) (V (Proc.devRef .tc main_v1)) (V (Proc.devRef .tc main_v3)))
        (V (Proc.devRef .tc main_v105)) (V (Proc.devRef .tc main_arg8)) (V (Proc.devRef .tc main_arg9)) (V (Proc.devRef .tc main_arg10)) := by
  rw [after_cut (opsC (F := Ideal)) 24]
  show after sageC (after aggC V) (Proc.devRef .tc main_v132) = _
  rw [sageC_v132, aggC_v123, aggC_keeps_v105,
    kept_arg aggC aggC_sub V main_arg8 (by decide), kept_arg aggC aggC_sub V main_arg9 (by decide),
    kept_arg aggC aggC_sub V main_arg10 (by decide)]
  rfl

end Cert.Sage

end
-- ==== Proof.RefSideD.lean ====
/-
  The reference's last part, read from any buffer contents: the head, two affine layers with a rectification between
  and the log-softmax of each row.

  The part is read in two stretches: the two affine layers (operations 1 to 13 of the part), then the log-softmax (14 to
  28). The log-softmax is a called function: its fifteen operations are written over references that carry their tensor
  types. They are first shown to be the same fifteen operations over the buffers themselves, and read in that form.
-/
import proofs.«429018_j42013370089829_2_alg».proof.Proof.RefSideKept
import proofs.«429018_j42013370089829_2_alg».proof.Proof.Spec

set_option maxRecDepth 16384

noncomputable section

namespace Cert.Sage

open Idealize.ShloMosaic Idealize.ShloMosaic.TcCoe Idealize.ShloMosaic.StableHlo Idealize.SL.Sem Cert.ReferenceIdeal Cert.ReferenceIdeal.Gen Cert.Sage.Ref

section Plain

variable {F : FTy → Type} [FloatOps F]

/-- A two-operand operation over typed references whose types are the buffers' own is the operation over the buffers. -/
theorem tbinary_self {Val : EltTy → Type} (a b y : Ref sig .tc) (da : a.space ≠ .host) (ua : a.isScoped = false)
    (db : b.space ≠ .host) (ub : b.isScoped = false) (dy : y.space ≠ .host) (uy : y.isScoped = false)
    (f : a.ty.Contents Val → b.ty.Contents Val → y.ty.Contents Val) :
    TRef.binary (τ := τ) (⟨a, rfl, da, ua⟩ : TRef sig a.ty) (⟨b, rfl, db, ub⟩ : TRef sig b.ty) (⟨y, rfl, dy, uy⟩ : TRef sig y.ty) f
      = StableHlo.binary a b y f ⟨da, ua⟩ ⟨db, ub⟩ ⟨dy, uy⟩ := rfl

/-- The log-softmax's fifteen operations, written over the buffers themselves: the largest entry of each row, the rows
    shifted by it, their exponentials, the sum of each row, its logarithm, and the shifted rows minus that. -/
abbrev lsmOps : List (HloOp τ sig (Elt F)) :=
  [ nullary main_call4_cst (constant S_ .f32 0xFF800000#32),
    binary main_v143 main_call4_cst main_call4_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)),
    nullary main_call4_cst_0 (constant S_ .f32 0xFF800000#32),
    unary main_call4_cst_0 main_call4_v1 (broadcastInDim S100000 ![] bcast_S_S100000 : (⟨S_, .f32⟩ : BufTy).Contents (Elt F) → (⟨S100000, .f32⟩ : BufTy).Contents (Elt F)),
    binary main_call4_v1 main_call4_v0 main_call4_v2 (maximumf : (⟨S100000, .f32⟩ : BufTy).Contents (Elt F) → (⟨S100000, .f32⟩ : BufTy).Contents (Elt F) → (⟨S100000, .f32⟩ : BufTy).Contents (Elt F)),
    unary main_call4_v2 main_call4_v3 (broadcastInDim S100000x1 ![0] bcast_S100000_S100000x1_0 : (⟨S100000, .f32⟩ : BufTy).Contents (Elt F) → (⟨S100000x1, .f32⟩ : BufTy).Contents (Elt F)),
    unary main_call4_v3 main_call4_v4 (broadcastInDim S100000x16 ![0, 1] bcast_S100000x1_S100000x16_0_1 : (⟨S100000x1, .f32⟩ : BufTy).Contents (Elt F) → (⟨S100000x16, .f32⟩ : BufTy).Contents (Elt F)),
    binary main_v143 main_call4_v4 main_call4_v5 (subf : (⟨S100000x16, .f32⟩ : BufTy).Contents (Elt F) → (⟨S100000x16, .f32⟩ : BufTy).Contents (Elt F) → (⟨S100000x16, .f32⟩ : BufTy).Contents (Elt F)),
    unary main_call4_v5 main_call4_v6 (Host.exp : (⟨S100000x16, .f32⟩ : BufTy).Contents (Elt F) → (⟨S100000x16, .f32⟩ : BufTy).Contents (Elt F)),
    nullary main_call4_cst_1 (constant S_ .f32 0x00000000#32),
    binary main_call4_v6 main_call4_cst_1 main_call4_v7 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_call4_v7 main_call4_v8 (broadcastInDim S100000x1 ![0] bcast_S100000_S100000x1_0 : (⟨S100000, .f32⟩ : BufTy).Contents (Elt F) → (⟨S100000x1, .f32⟩ : BufTy).Contents (Elt F)),
    unary main_call4_v8 main_call4_v9 (Host.log : (⟨S100000x1, .f32⟩ : BufTy).Contents (Elt F) → (⟨S100000x1, .f32⟩ : BufTy).Contents (Elt F)),
    unary main_call4_v9 main_call4_v10 (broadcastInDim S100000x16 ![0, 1] bcast_S100000x1_S100000x16_0_1 : (⟨S100000x1, .f32⟩ : BufTy).Contents (Elt F) → (⟨S100000x16, .f32⟩ : BufTy).Contents (Elt F)),
    binary main_call4_v5 main_call4_v10 main_v144 (subf : (⟨S100000x16, .f32⟩ : BufTy).Contents (Elt F) → (⟨S100000x16, .f32⟩ : BufTy).Contents (Elt F) → (⟨S100000x16, .f32⟩ : BufTy).Contents (Elt F)) ]

/-- The row maximum over typed references is the row maximum over the buffers. -/
theorem rowMax_plain :
    (TRef.binary (TRef.of (T := ⟨S100000x16, .f32⟩) main_v143) (TRef.of (T := ⟨S_, .f32⟩) main_call4_cst) (TRef.of (T := ⟨S100000, .f32⟩) main_call4_v0)
        (fun x v => Host.reduce FloatOps.maximumf x v reducesTo_S100000x16_S100000_d1 h_S_) : HloOp τ sig (Elt F))
      = binary main_v143 main_call4_cst main_call4_v0 ((fun x v => Host.reduce FloatOps.maximumf x v reducesTo_S100000x16_S100000_d1 h_S_) : (⟨S100000x16, .f32⟩ : BufTy).Contents (Elt F) → (⟨S_, .f32⟩ : BufTy).Contents (Elt F) → (⟨S100000, .f32⟩ : BufTy).Contents (Elt F)) :=
  tbinary_self main_v143 main_call4_cst main_call4_v0 (by decide) rfl (by decide) rfl (by decide) rfl _

/-- They are the last fifteen operations of the line. -/
theorem lsm_eq : (opsD (F := F)).drop 13 = lsmOps := by
  simp only [opsD, List.drop_succ_cons, List.drop_zero]
  rw [rowMax_plain]
  rfl

end Plain

variable (V : Valuation τ sig (Elt Ideal))

/-- The two stretches. -/
abbrev affD : List (HloOp τ sig (Elt Ideal)) := (opsD (F := Ideal)).take 13

theorem affD_sub : ∀ op ∈ affD, op ∈ ops (F := Ideal) := sub_take opsD_sub 13

/-- The first stretch leaves the logits: the second affine layer of the rectified first. -/
theorem affD_v143 : (after affD V (Proc.devRef .tc main_v143) : FVec Ideal SNx16 .f32)
    = RowLayers.Whole.affine (F := Ideal) (M := 100000) (by decide) (by decide) (by decide)
        (relu (F := Ideal)
          (RowLayers.Whole.affine (F := Ideal) (M := 100000) (by decide) (by decide) (by decide) (V (Proc.devRef .tc main_v132))
            (V (Proc.devRef .tc main_arg15)) (V (Proc.devRef .tc main_arg16))) (by decide))
        (V (Proc.devRef .tc main_arg17)) (V (Proc.devRef .tc main_arg18)) := by
  simp only [affD, opsD, List.take_succ_cons, List.take_zero]
  after_results_simp
  simp only [TRef.ofBuf, TRef.toBuf, cast_cast, cast_eq]
  rfl

/-- The second the log-softmax of the logits. -/
theorem lsm_v144 : (after (lsmOps (F := Ideal)) V (Proc.devRef .tc main_v144) : FVec Ideal SNx16 .f32)
    = logSoftmax (F := Ideal) (V (Proc.devRef .tc main_v143)) := by
  after_results_simp <;> rfl

/-- The head of a hidden state. -/
theorem partD_v144 : (after (opsD (F := Ideal)) V (Proc.devRef .tc main_v144) : FVec Ideal SNx16 .f32)
    = head (F := Ideal) (V (Proc.devRef .tc main_v132)) (V (Proc.devRef .tc main_arg15)) (V (Proc.devRef .tc main_arg16))
        (V (Proc.devRef .tc main_arg17)) (V (Proc.devRef .tc main_arg18)) := by
  rw [after_cut (opsD (F := Ideal)) 13, lsm_eq]
  show after lsmOps (after affD V) (Proc.devRef .tc main_v144) = _
  rw [lsm_v144, affD_v143]
  rfl

end Cert.Sage

end
-- ==== Proof.AggBridge.lean ====
/-
  The two spellings of the neighbour average agree when every source index is a node number.

  With every source in [0, 100000) the wrapped index is the index itself, the range test of the filling read is true on
  every edge, and the read is the direct one. The degree of a node is the number of edges whose target it is, whether
  the ones are accumulated into a vector or into a one-column matrix.
-/
import proofs.«429018_j42013370089829_2_alg».proof.Proof.Spec
import Idealize.ShloMosaic.Lib.StableHlo.Predicate
import Idealize.ShloMosaic.Lib.ReduceAll

noncomputable section

namespace Cert.Sage

open Idealize.ShloMosaic Idealize.ShloMosaic.ValueIdx

/-- Every source index is a node number. -/
def SrcOk (src : IVec SE 32) : Prop := ∀ e : Fin 600000, 0 ≤ (src (ix1 e)).toInt ∧ (src (ix1 e)).toInt < 100000

/-- A conjunction of set bits, started from a set bit, is set. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- The conjunction along any axes of an array of set bits, from a set bit, is set everywhere. -/
theorem reduce_andi_ones {s t u : Shape} {axes : List (Fin s.rank)} (init : u.Idx → BitVec 1) (h : s.ReducesTo axes t)
    (hu : 0 < u.numel) (hinit : ∀ k, init k = 1#1) (j : t.Idx) :
    Host.reduce IntOp.andi (fun _ : s.Idx => 1#1) init h hu j = 1#1 := by
  rw [Host.reduce_eq_foldl, hinit]
  exact foldl_andi_ones (fun _ => 1#1) (fun _ => rfl) _

/-- The same with the set bit a splat constant, as an equation of arrays. -/
theorem reduce_andi_ones_const {s t u : Shape} {axes : List (Fin s.rank)} (h : s.ReducesTo axes t) (hu : 0 < u.numel) :
    Host.reduce IntOp.andi (fun _ : s.Idx => 1#1) (constantI u 1 1#1) h hu = fun _ => 1#1 :=
  funext (reduce_andi_ones _ h hu (fun _ => rfl))

/-- The wrapped source of an edge whose source is a node number is that source. -/
theorem wrapCol_apply (src : IVec SE 32) (hsrc : SrcOk src) (e : Fin 600000) (u : Fin 1) :
    wrapCol src (ix2 e u) = src (ix1 e) := by
  unfold wrapCol
  rw [RowLayers.columnBroadcast_apply]
  show Scalar.select (IntOp.cmpi .slt (src (ix1 e)) 0#32) (IntOp.addi (src (ix1 e)) 100000#32) (src (ix1 e)) = src (ix1 e)
  have h0 : IntOp.cmpi .slt (src (ix1 e)) 0#32 = 0#1 := by
    have h := (hsrc e).1
    have hz : (0#32 : BitVec 32).toInt = 0 := by decide
    simp only [IntOp.cmpi, BitVec.slt, hz]
    rw [decide_eq_false (by omega)]
    rfl
  rw [h0, select_zero]

/-- The range test of the filling read holds on every edge. -/
theorem mask_ones (src : IVec SE 32) (hsrc : SrcOk src) :
    andi (cmpi .sge (wrapCol src) (broadcastInDim SEx1 ![] (by decide) (constantI S0 32 0#32)))
        (cmpi .sle (wrapCol src)
          (broadcastInDim SEx1 ![0, 1] (by decide) (broadcastInDim (⟨2, ![1, 1]⟩ : Shape) ![1] (by decide) (constantI (⟨1, ![1]⟩ : Shape) 32 99999#32))))
      = fun _ => 1#1 := by
  funext i
  obtain ⟨e, u, rfl⟩ : ∃ e u, i = ix2 e u := ⟨i 0, i 1, eq_ix2 i⟩
  show IntOp.andi (IntOp.cmpi .sge (wrapCol src (ix2 e u)) 0#32) (IntOp.cmpi .sle (wrapCol src (ix2 e u)) 99999#32) = 1#1
  rw [wrapCol_apply src hsrc]
  have h := hsrc e
  have hz : (0#32 : BitVec 32).toInt = 0 := by decide
  have hm : (99999#32 : BitVec 32).toInt = 99999 := by decide
  have h1 : IntOp.cmpi .sge (src (ix1 e)) 0#32 = 1#1 := by
    simp only [IntOp.cmpi, BitVec.sle, hz]
    rw [decide_eq_true (by omega)]
    rfl
  have h2 : IntOp.cmpi .sle (src (ix1 e)) 99999#32 = 1#1 := by
    simp only [IntOp.cmpi, BitVec.sle, hm]
    rw [decide_eq_true (by omega)]
    rfl
  rw [h1, h2]
  decide

/-- With sources in range the filling read is the direct read. -/
theorem gatherK_eq_gatherR {F : FTy → Type} [FloatOps F] (H : FVec F SNxD .f32) (src : IVec SE 32) (hsrc : SrcOk src) :
    gatherK H src = gatherR H src := by
  funext i
  unfold gatherK gatherR
  rw [mask_ones src hsrc, reduce_andi_ones_const, select_apply]
  exact select_one _ _

/-- An update lands on an operand index exactly when start plus window coordinate is that index on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e1 := congrArg Fin.val (congrFun (Option.some.inj e) a)
      have h2 := h a
      simp only at e1
      omega
    · intro e
      refine congrArg some (funext fun a => Fin.ext ?_)
      show (d.start j idx a + (d.window j a : Int)).toNat = (i a).val
      rw [e a, Int.toNat_natCast]
  · next h =>
    constructor
    · intro e; cases e
    · intro e
      exfalso
      apply h
      intro a
      rw [e a]
      exact ⟨Int.natCast_nonneg _, by exact_mod_cast (i a).isLt⟩

/-- The vector count's start on its one axis is the edge's target index read signed. -/
theorem sDegV_start (idx : IVec SEx1 32) (e : Fin 600000) :
    sDegV.start (ix1 e) idx ⟨0, by decide⟩ = (idx (ix2 e 0)).toInt := by
  unfold ScatterDims.start
  rw [dif_pos (by decide)]
  refine congrArg (fun k => (idx k).toInt) (funext fun b => ?_)
  match b with
  | ⟨0, _⟩ => rfl
  | ⟨1, _⟩ => rfl

theorem sDegV_window (e : Fin 600000) : sDegV.window (ix1 e) ⟨0, by decide⟩ = 0 := by
  unfold ScatterDims.window
  rw [dif_neg (by decide)]

theorem sDegC_start0 (idx : IVec SEx1 32) (e : Fin 600000) (u : Fin 1) :
    sDegC.start (ix2 e u) idx ⟨0, by decide⟩ = (idx (ix2 e 0)).toInt := by
  unfold ScatterDims.start
  rw [dif_pos (by decide)]
  refine congrArg (fun k => (idx k).toInt) (funext fun b => ?_)
  match b with
  | ⟨0, _⟩ => rfl
  | ⟨1, _⟩ => rfl

theorem sDegC_start1 (idx : IVec SEx1 32) (e : Fin 600000) (u : Fin 1) :
    sDegC.start (ix2 e u) idx ⟨1, by decide⟩ = 0 := by
  unfold ScatterDims.start
  rw [dif_neg (by decide)]

theorem sDegC_window0 (e : Fin 600000) (u : Fin 1) : sDegC.window (ix2 e u) ⟨0, by decide⟩ = 0 := by
  unfold ScatterDims.window
  rw [dif_neg (by decide)]

theorem sDegC_window1 (e : Fin 600000) (u : Fin 1) : sDegC.window (ix2 e u) ⟨1, by decide⟩ = 0 := by
  unfold ScatterDims.window
  rw [dif_pos (by decide)]
  show (u : Nat) = 0
  omega

/-- An edge counts for node n in the vector exactly when its target index, read signed, is n. -/
theorem sDegV_hits (idx : IVec SEx1 32) (e : Fin 600000) (n : Fin 100000) :
    sDegV.resultIdx? (ix1 e) idx = some (ix1 n) ↔ (idx (ix2 e 0)).toInt = (n.val : Int) := by
  rw [resultIdx?_eq_some_iff]
  constructor
  · intro h
    have h0 := h ⟨0, by decide⟩
    rw [sDegV_start, sDegV_window] at h0
    simpa using h0
  · intro h a
    match a with
    | ⟨0, _⟩ =>
      rw [sDegV_start, sDegV_window]
      simpa using h

/-- An edge counts for node n in the column exactly when its target index, read signed, is n. -/
theorem sDegC_hits (idx : IVec SEx1 32) (e : Fin 600000) (u u' : Fin 1) (n : Fin 100000) :
    sDegC.resultIdx? (ix2 e u) idx = some (ix2 n u') ↔ (idx (ix2 e 0)).toInt = (n.val : Int) := by
  rw [resultIdx?_eq_some_iff]
  constructor
  · intro h
    have h0 := h ⟨0, by decide⟩
    rw [sDegC_start0, sDegC_window0] at h0
    simpa using h0
  · intro h a
    match a with
    | ⟨0, _⟩ =>
      rw [sDegC_start0, sDegC_window0]
      simpa using h
    | ⟨1, _⟩ =>
      rw [sDegC_start1, sDegC_window1]
      show ((0 : Nat) : Int) + ((0 : Nat) : Int) = ((u' : Nat) : Int)
      have := u'.isLt
      omega

/-- Two accumulating scatters whose updates correspond one to one, equal entry for entry and landing on corresponding
    operand entries, agree on those entries. -/
theorem hostScatterAdd_reindex {s s' si u u' : Shape} {w : Nat} (d : ScatterDims s si u) (d' : ScatterDims s' si u')
    (x : s.Idx → EReal) (x' : s'.Idx → EReal) (idx : IVec si w) (upd : u.Idx → EReal) (upd' : u'.Idx → EReal)
    (i : s.Idx) (i' : s'.Idx) (σ : u.Idx → u'.Idx) (τ : u'.Idx → u.Idx)
    (hστ : ∀ j, τ (σ j) = j) (hτσ : ∀ j', σ (τ j') = j')
    (hx : x i = x' i') (hupd : ∀ j, upd j = upd' (σ j))
    (hhit : ∀ j, d.resultIdx? j idx = some i ↔ d'.resultIdx? (σ j) idx = some i') :
    Ideal.hostScatterAdd d x idx upd i = Ideal.hostScatterAdd d' x' idx upd' i' := by
  unfold Ideal.hostScatterAdd
  rw [hx]
  refine congrArg (fun z => x' i' + z) ?_
  refine Finset.sum_nbij' σ τ ?_ ?_ (fun j _ => hστ j) (fun j' _ => hτσ j') (fun j _ => hupd j)
  · intro j hj
    simp only [Finset.mem_filter, Finset.mem_univ, true_and] at hj ⊢
    exact (hhit j).1 hj
  · intro j' hj'
    simp only [Finset.mem_filter, Finset.mem_univ, true_and] at hj' ⊢
    exact (hhit (τ j')).2 (by rw [hτσ]; exact hj')

/-- The same for the host's accumulating scatter of extended reals. -/
theorem scatterAdd_reindex {s s' si u u' : Shape} {w : Nat} {φ : FTy} (d : ScatterDims s si u) (d' : ScatterDims s' si u')
    (x : FVec Ideal s φ) (x' : FVec Ideal s' φ) (idx : IVec si w) (upd : FVec Ideal u φ) (upd' : FVec Ideal u' φ)
    (i : s.Idx) (i' : s'.Idx) (σ : u.Idx → u'.Idx) (τ : u'.Idx → u.Idx)
    (hστ : ∀ j, τ (σ j) = j) (hτσ : ∀ j', σ (τ j') = j')
    (hx : x i = x' i') (hupd : ∀ j, upd j = upd' (σ j))
    (hhit : ∀ j, d.resultIdx? j idx = some i ↔ d'.resultIdx? (σ j) idx = some i') :
    Host.scatterAdd d x idx upd i = Host.scatterAdd d' x' idx upd' i' :=
  hostScatterAdd_reindex d d' x x' idx upd upd' i i' σ τ hστ hτσ hx hupd hhit

/-- An edge of the vector of ones as an edge of the column of ones, and back. -/
def toCol (j : SE.Idx) : SEx1.Idx := ix2 (n0 := 600000) (n1 := 1) (j 0) 0
def toVec (j' : SEx1.Idx) : SE.Idx := ix1 (n := 600000) (j' 0)

theorem toVec_toCol (j : SE.Idx) : toVec (toCol j) = j := (eq_ix1 j).symm

theorem toCol_toVec (j' : SEx1.Idx) : toCol (toVec j') = j' := by
  funext b
  match b with
  | ⟨0, _⟩ => rfl
  | ⟨1, hb⟩ =>
    refine Fin.ext ?_
    have h1 : (j' ⟨1, hb⟩).val < 1 := (j' ⟨1, hb⟩).isLt
    show 0 = (j' ⟨1, hb⟩).val
    omega

/-- The degree of node n counted in the vector is its degree counted in the column. -/
theorem degV_eq_degC (idx : IVec SEx1 32) (n : Fin 100000) (u : Fin 1) :
    Host.scatterAdd (F := Ideal) sDegV (broadcastInDim SN ![] (by decide) (constant S0 .f32 0x00000000#32)) idx
        (broadcastInDim SE ![] (by decide) (constant S0 .f32 0x3F800000#32)) (ix1 n)
      = Host.scatterAdd (F := Ideal) sDegC (broadcastInDim SNx1 ![] (by decide) (constant S0 .f32 0x00000000#32)) idx
        (broadcastInDim SEx1 ![] (by decide) (constant S0 .f32 0x3F800000#32)) (ix2 n u) := by
  refine scatterAdd_reindex sDegV sDegC _ _ idx _ _ (ix1 n) (ix2 n u) toCol toVec toVec_toCol toCol_toVec ?_ ?_ ?_
  · rw [RowLayers.scalarBroadcast_apply, RowLayers.scalarBroadcast_apply]
  · intro j
    rw [RowLayers.scalarBroadcast_apply, RowLayers.scalarBroadcast_apply]
  · intro j
    obtain ⟨e, rfl⟩ : ∃ e : Fin 600000, j = ix1 e := ⟨j 0, eq_ix1 j⟩
    show sDegV.resultIdx? (ix1 e) idx = some (ix1 n) ↔ sDegC.resultIdx? (ix2 e 0) idx = some (ix2 n u)
    rw [sDegV_hits, sDegC_hits]

/-- The degrees counted in a vector and made a column are the degrees counted in a column. -/
theorem meanK_eq_meanR (msg : FVec Ideal SExD .f32) (dst : IVec SE 32) : meanK msg dst = meanR msg dst := by
  delta meanK meanR
  refine congrArg (Host.divf _) ?_
  funext i
  obtain ⟨n, c, rfl⟩ : ∃ n c, i = ix2 n c := ⟨i 0, i 1, eq_ix2 i⟩
  rw [RowLayers.columnAcross_apply, RowLayers.columnAcross_apply, RowLayers.columnBroadcast_apply, maximumf_apply,
    maximumf_apply, degV_eq_degC _ n _, RowLayers.scalarBroadcast_apply, RowLayers.scalarBroadcast_apply]

/-- The two spellings of the neighbour average agree. -/
theorem aggK_eq_aggR (H : FVec Ideal SNxD .f32) (src dst : IVec SE 32) (hsrc : SrcOk src) : aggK H src dst = aggR H src dst := by
  unfold aggK aggR
  rw [gatherK_eq_gatherR H src hsrc, meanK_eq_meanR]

end Cert.Sage

end
-- ==== Proof.Net.lean ====
/-
  The whole network as one function of its nineteen argument arrays, over either spelling of the neighbour average;
  with every source index a node number the two spellings give the same network.
-/
import proofs.«429018_j42013370089829_2_alg».proof.Proof.AggBridge

noncomputable section

namespace Cert.Sage

open Idealize.ShloMosaic

/-- A spelling of the neighbour average: of a hidden state, the sources and the targets. -/
abbrev Agg : Type := FVec Ideal SNxD .f32 → IVec SE 32 → IVec SE 32 → FVec Ideal SNxD .f32

/-- The hidden state after the first layer. -/
def net1 (agg : Agg) (x : FVec Ideal SNxD .f32) (ei : IVec SE2 32) (Wl0 : FVec Ideal SDxD .f32) (bl0 : FVec Ideal SD .f32)
    (Wr0 : FVec Ideal SDxD .f32) (ln0w ln0b : FVec Ideal SD .f32) : FVec Ideal SNxD .f32 :=
  layerLN (agg x (edgeRow 0 (by decide) (by decide) ei) (edgeRow 1 (by decide) (by decide) ei)) x Wl0 bl0 Wr0 ln0w ln0b

/-- After the second. -/
def net2 (agg : Agg) (x : FVec Ideal SNxD .f32) (ei : IVec SE2 32) (Wl0 : FVec Ideal SDxD .f32) (bl0 : FVec Ideal SD .f32)
    (Wr0 Wl1 : FVec Ideal SDxD .f32) (bl1 : FVec Ideal SD .f32) (Wr1 : FVec Ideal SDxD .f32) (ln0w ln0b ln1w ln1b : FVec Ideal SD .f32) :
    FVec Ideal SNxD .f32 :=
  layerLN (agg (net1 agg x ei Wl0 bl0 Wr0 ln0w ln0b) (edgeRow 0 (by decide) (by decide) ei) (edgeRow 1 (by decide) (by decide) ei))
    (net1 agg x ei Wl0 bl0 Wr0 ln0w ln0b) Wl1 bl1 Wr1 ln1w ln1b

/-- After the third: the embedding the network returns. -/
def net3 (agg : Agg) (x : FVec Ideal SNxD .f32) (ei : IVec SE2 32) (Wl0 : FVec Ideal SDxD .f32) (bl0 : FVec Ideal SD .f32)
    (Wr0 Wl1 : FVec Ideal SDxD .f32) (bl1 : FVec Ideal SD .f32) (Wr1 Wl2 : FVec Ideal SDxD .f32) (bl2 : FVec Ideal SD .f32)
    (Wr2 : FVec Ideal SDxD .f32) (ln0w ln0b ln1w ln1b : FVec Ideal SD .f32) : FVec Ideal SNxD .f32 :=
  layerPlain
    (agg (net2 agg x ei Wl0 bl0 Wr0 Wl1 bl1 Wr1 ln0w ln0b ln1w ln1b) (edgeRow 0 (by decide) (by decide) ei) (edgeRow 1 (by decide) (by decide) ei))
    (net2 agg x ei Wl0 bl0 Wr0 Wl1 bl1 Wr1 ln0w ln0b ln1w ln1b) Wl2 bl2 Wr2

/-- The log-probabilities the network returns. -/
def netOut (agg : Agg) (x : FVec Ideal SNxD .f32) (ei : IVec SE2 32) (Wl0 : FVec Ideal SDxD .f32) (bl0 : FVec Ideal SD .f32)
    (Wr0 Wl1 : FVec Ideal SDxD .f32) (bl1 : FVec Ideal SD .f32) (Wr1 Wl2 : FVec Ideal SDxD .f32) (bl2 : FVec Ideal SD .f32)
    (Wr2 : FVec Ideal SDxD .f32) (ln0w ln0b ln1w ln1b : FVec Ideal SD .f32) (W1 : FVec Ideal ⟨2, ![50, 128]⟩ .f32)
    (b1 : FVec Ideal ⟨1, ![50]⟩ .f32) (W2 : FVec Ideal ⟨2, ![16, 50]⟩ .f32) (b2 : FVec Ideal ⟨1, ![16]⟩ .f32) : FVec Ideal SNx16 .f32 :=
  head (net3 agg x ei Wl0 bl0 Wr0 Wl1 bl1 Wr1 Wl2 bl2 Wr2 ln0w ln0b ln1w ln1b) W1 b1 W2 b2

variable (x : FVec Ideal SNxD .f32) (ei : IVec SE2 32) (Wl0 : FVec Ideal SDxD .f32) (bl0 : FVec Ideal SD .f32)
    (Wr0 Wl1 : FVec Ideal SDxD .f32) (bl1 : FVec Ideal SD .f32) (Wr1 Wl2 : FVec Ideal SDxD .f32) (bl2 : FVec Ideal SD .f32)
    (Wr2 : FVec Ideal SDxD .f32) (ln0w ln0b ln1w ln1b : FVec Ideal SD .f32)

/-- With the sources in range the two spellings give the same embedding: layer by layer the averages agree. -/
theorem net3_K_eq_R (hsrc : SrcOk (edgeRow 0 (by decide) (by decide) ei)) :
    net3 aggK x ei Wl0 bl0 Wr0 Wl1 bl1 Wr1 Wl2 bl2 Wr2 ln0w ln0b ln1w ln1b
      = net3 aggR x ei Wl0 bl0 Wr0 Wl1 bl1 Wr1 Wl2 bl2 Wr2 ln0w ln0b ln1w ln1b := by
  have e1 : net1 aggK x ei Wl0 bl0 Wr0 ln0w ln0b = net1 aggR x ei Wl0 bl0 Wr0 ln0w ln0b := by
    unfold net1; rw [aggK_eq_aggR _ _ _ hsrc]
  have e2 : net2 aggK x ei Wl0 bl0 Wr0 Wl1 bl1 Wr1 ln0w ln0b ln1w ln1b = net2 aggR x ei Wl0 bl0 Wr0 Wl1 bl1 Wr1 ln0w ln0b ln1w ln1b := by
    unfold net2; rw [e1, aggK_eq_aggR _ _ _ hsrc]
  unfold net3; rw [e2, aggK_eq_aggR _ _ _ hsrc]

/-- … and the same log-probabilities. -/
theorem netOut_K_eq_R (W1 : FVec Ideal ⟨2, ![50, 128]⟩ .f32) (b1 : FVec Ideal ⟨1, ![50]⟩ .f32) (W2 : FVec Ideal ⟨2, ![16, 50]⟩ .f32)
    (b2 : FVec Ideal ⟨1, ![16]⟩ .f32) (hsrc : SrcOk (edgeRow 0 (by decide) (by decide) ei)) :
    netOut aggK x ei Wl0 bl0 Wr0 Wl1 bl1 Wr1 Wl2 bl2 Wr2 ln0w ln0b ln1w ln1b W1 b1 W2 b2
      = netOut aggR x ei Wl0 bl0 Wr0 Wl1 bl1 Wr1 Wl2 bl2 Wr2 ln0w ln0b ln1w ln1b W1 b1 W2 b2 := by
  unfold netOut; rw [net3_K_eq_R x ei Wl0 bl0 Wr0 Wl1 bl1 Wr1 Wl2 bl2 Wr2 ln0w ln0b ln1w ln1b hsrc]

end Cert.Sage

end
-- ==== Proof.RefSide.lean ====
/-
  The reference program's run, read: its two results are the network over the direct spelling of the neighbour average.

  The reference is one straight line of host operations. Cut after each layer, a part computes one layer of the
  specification from the buffers the parts before it left: the edge rows and the first layer; the second layer; the
  third; the head. No operation writes an argument.
-/
import proofs.«429018_j42013370089829_2_alg».proof.Proof.RefSideA
import proofs.«429018_j42013370089829_2_alg».proof.Proof.RefSideB
import proofs.«429018_j42013370089829_2_alg».proof.Proof.RefSideC
import proofs.«429018_j42013370089829_2_alg».proof.Proof.RefSideD
import proofs.«429018_j42013370089829_2_alg».proof.Proof.RefSideKept
import proofs.«429018_j42013370089829_2_alg».proof.Proof.Net

set_option maxRecDepth 16384

noncomputable section

namespace Cert.Sage

open Idealize.ShloMosaic Idealize.ShloMosaic.TcCoe Idealize.ShloMosaic.StableHlo Idealize.SL.Sem Cert.ReferenceIdeal Cert.Sage.Ref

variable (m : (ℓ : Loc nD τ sig) → Buf (Elt Ideal) ℓ)

section Stages

variable (V : Valuation τ sig (Elt Ideal))

/-- From any contents, the first part leaves the hidden state after the first layer, -/
theorem stageA_v54 : (after (opsA (F := Ideal)) V (Proc.devRef .tc main_v54) : FVec Ideal SNxD .f32)
    = net1 aggR (V (Proc.devRef .tc main_arg0)) (V (Proc.devRef .tc main_arg1)) (V (Proc.devRef .tc main_arg2)) (V (Proc.devRef .tc main_arg3))
        (V (Proc.devRef .tc main_arg4)) (V (Proc.devRef .tc main_arg11)) (V (Proc.devRef .tc main_arg12)) := by
  rw [partA_v54]; rfl

/-- the first two parts the hidden state after the second, -/
theorem stageB_v105 : (after (opsB (F := Ideal)) (after (opsA (F := Ideal)) V) (Proc.devRef .tc main_v105) : FVec Ideal SNxD .f32)
    = net2 aggR (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg11)) (V (Proc.devRef .tc main_arg12)) (V (Proc.devRef .tc main_arg13)) (V (Proc.devRef .tc main_arg14)) := by
  rw [partB_v105, stageA_v54, partA_v1, partA_v3,
    kept_arg opsA opsA_sub V main_arg5 (by decide), kept_arg opsA opsA_sub V main_arg6 (by decide),
    kept_arg opsA opsA_sub V main_arg7 (by decide), kept_arg opsA opsA_sub V main_arg13 (by decide),
    kept_arg opsA opsA_sub V main_arg14 (by decide)]
  rfl

/-- the first three the embedding, -/
theorem stageC_v132 :
    (after (opsC (F := Ideal)) (after (opsB (F := Ideal)) (after (opsA (F := Ideal)) V)) (Proc.devRef .tc main_v132) : FVec Ideal SNxD .f32)
    = net3 aggR (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10))
        (V (Proc.devRef .tc main_arg11)) (V (Proc.devRef .tc main_arg12)) (V (Proc.devRef .tc main_arg13)) (V (Proc.devRef .tc main_arg14)) := by
  rw [partC_v132, stageB_v105, keptB_v1, keptB_v3, partA_v1, partA_v3,
    kept_arg opsB opsB_sub _ main_arg8 (by decide), kept_arg opsA opsA_sub V main_arg8 (by decide),
    kept_arg opsB opsB_sub _ main_arg9 (by decide), kept_arg opsA opsA_sub V main_arg9 (by decide),
    kept_arg opsB opsB_sub _ main_arg10 (by decide), kept_arg opsA opsA_sub V main_arg10 (by decide)]
  rfl

/-- and all four the log-probabilities. -/
theorem stageD_v144 :
    (after (opsD (F := Ideal)) (after (opsC (F := Ideal)) (after (opsB (F := Ideal)) (after (opsA (F := Ideal)) V))) (Proc.devRef .tc main_v144) : FVec Ideal SNx16 .f32)
    = netOut aggR (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10))
        (V (Proc.devRef .tc main_arg11)) (V (Proc.devRef .tc main_arg12)) (V (Proc.devRef .tc main_arg13)) (V (Proc.devRef .tc main_arg14))
        (V (Proc.devRef .tc main_arg15)) (V (Proc.devRef .tc main_arg16)) (V (Proc.devRef .tc main_arg17)) (V (Proc.devRef .tc main_arg18)) := by
  rw [partD_v144, stageC_v132,
    kept_arg opsC opsC_sub _ main_arg15 (by decide), kept_arg opsB opsB_sub _ main_arg15 (by decide), kept_arg opsA opsA_sub V main_arg15 (by decide),
    kept_arg opsC opsC_sub _ main_arg16 (by decide), kept_arg opsB opsB_sub _ main_arg16 (by decide), kept_arg opsA opsA_sub V main_arg16 (by decide),
    kept_arg opsC opsC_sub _ main_arg17 (by decide), kept_arg opsB opsB_sub _ main_arg17 (by decide), kept_arg opsA opsA_sub V main_arg17 (by decide),
    kept_arg opsC opsC_sub _ main_arg18 (by decide), kept_arg opsB opsB_sub _ main_arg18 (by decide), kept_arg opsA opsA_sub V main_arg18 (by decide)]
  rfl

end Stages

/-- After the whole line the first result buffer holds the network's embedding. -/
theorem ref_emb (c : Dev nD) :
    (after (ops (F := Ideal)) (launchContents m c) (Proc.devRef .tc main_v132) : FVec Ideal SNxD .f32)
      = net3 aggR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [ops_split, after_parts, after_parts, after_parts, keptD_v132, stageC_v132]

/-- … and the second the network's log-probabilities. -/
theorem ref_out (c : Dev nD) :
    (after (ops (F := Ideal)) (launchContents m c) (Proc.devRef .tc main_v144) : FVec Ideal SNx16 .f32)
      = netOut aggR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  rw [ops_split, after_parts, after_parts, after_parts, stageD_v144]

/-- Argument 0 is written by no operation. -/
theorem ref_arg0 (c : Dev nD) : after (ops (F := Ideal)) (launchContents m c) (Proc.devRef .tc main_arg0) = m ((c.tc : Thread nD τ).loc main_arg0) :=
  kept_arg ops (fun _ h => h) (launchContents m c) main_arg0 (by decide)

/-- Argument 1 is written by no operation. -/
theorem ref_arg1 (c : Dev nD) : after (ops (F := Ideal)) (launchContents m c) (Proc.devRef .tc main_arg1) = m ((c.tc : Thread nD τ).loc main_arg1) :=
  kept_arg ops (fun _ h => h) (launchContents m c) main_arg1 (by decide)

/-- Argument 2 is written by no operation. -/
theorem ref_arg2 (c : Dev nD) : after (ops (F := Ideal)) (launchContents m c) (Proc.devRef .tc main_arg2) = m ((c.tc : Thread nD τ).loc main_arg2) :=
  kept_arg ops (fun _ h => h) (launchContents m c) main_arg2 (by decide)

/-- Argument 3 is written by no operation. -/
theorem ref_arg3 (c : Dev nD) : after (ops (F := Ideal)) (launchContents m c) (Proc.devRef .tc main_arg3) = m ((c.tc : Thread nD τ).loc main_arg3) :=
  kept_arg ops (fun _ h => h) (launchContents m c) main_arg3 (by decide)

/-- Argument 4 is written by no operation. -/
theorem ref_arg4 (c : Dev nD) : after (ops (F := Ideal)) (launchContents m c) (Proc.devRef .tc main_arg4) = m ((c.tc : Thread nD τ).loc main_arg4) :=
  kept_arg ops (fun _ h => h) (launchContents m c) main_arg4 (by decide)

/-- Argument 5 is written by no operation. -/
theorem ref_arg5 (c : Dev nD) : after (ops (F := Ideal)) (launchContents m c) (Proc.devRef .tc main_arg5) = m ((c.tc : Thread nD τ).loc main_arg5) :=
  kept_arg ops (fun _ h => h) (launchContents m c) main_arg5 (by decide)

/-- Argument 6 is written by no operation. -/
theorem ref_arg6 (c : Dev nD) : after (ops (F := Ideal)) (launchContents m c) (Proc.devRef .tc main_arg6) = m ((c.tc : Thread nD τ).loc main_arg6) :=
  kept_arg ops (fun _ h => h) (launchContents m c) main_arg6 (by decide)

/-- Argument 7 is written by no operation. -/
theorem ref_arg7 (c : Dev nD) : after (ops (F := Ideal)) (launchContents m c) (Proc.devRef .tc main_arg7) = m ((c.tc : Thread nD τ).loc main_arg7) :=
  kept_arg ops (fun _ h => h) (launchContents m c) main_arg7 (by decide)

/-- Argument 8 is written by no operation. -/
theorem ref_arg8 (c : Dev nD) : after (ops (F := Ideal)) (launchContents m c) (Proc.devRef .tc main_arg8) = m ((c.tc : Thread nD τ).loc main_arg8) :=
  kept_arg ops (fun _ h => h) (launchContents m c) main_arg8 (by decide)

/-- Argument 9 is written by no operation. -/
theorem ref_arg9 (c : Dev nD) : after (ops (F := Ideal)) (launchContents m c) (Proc.devRef .tc main_arg9) = m ((c.tc : Thread nD τ).loc main_arg9) :=
  kept_arg ops (fun _ h => h) (launchContents m c) main_arg9 (by decide)

/-- Argument 10 is written by no operation. -/
theorem ref_arg10 (c : Dev nD) : after (ops (F := Ideal)) (launchContents m c) (Proc.devRef .tc main_arg10) = m ((c.tc : Thread nD τ).loc main_arg10) :=
  kept_arg ops (fun _ h => h) (launchContents m c) main_arg10 (by decide)

/-- Argument 11 is written by no operation. -/
theorem ref_arg11 (c : Dev nD) : after (ops (F := Ideal)) (launchContents m c) (Proc.devRef .tc main_arg11) = m ((c.tc : Thread nD τ).loc main_arg11) :=
  kept_arg ops (fun _ h => h) (launchContents m c) main_arg11 (by decide)

/-- Argument 12 is written by no operation. -/
theorem ref_arg12 (c : Dev nD) : after (ops (F := Ideal)) (launchContents m c) (Proc.devRef .tc main_arg12) = m ((c.tc : Thread nD τ).loc main_arg12) :=
  kept_arg ops (fun _ h => h) (launchContents m c) main_arg12 (by decide)

/-- Argument 13 is written by no operation. -/
theorem ref_arg13 (c : Dev nD) : after (ops (F := Ideal)) (launchContents m c) (Proc.devRef .tc main_arg13) = m ((c.tc : Thread nD τ).loc main_arg13) :=
  kept_arg ops (fun _ h => h) (launchContents m c) main_arg13 (by decide)

/-- Argument 14 is written by no operation. -/
theorem ref_arg14 (c : Dev nD) : after (ops (F := Ideal)) (launchContents m c) (Proc.devRef .tc main_arg14) = m ((c.tc : Thread nD τ).loc main_arg14) :=
  kept_arg ops (fun _ h => h) (launchContents m c) main_arg14 (by decide)

/-- Argument 15 is written by no operation. -/
theorem ref_arg15 (c : Dev nD) : after (ops (F := Ideal)) (launchContents m c) (Proc.devRef .tc main_arg15) = m ((c.tc : Thread nD τ).loc main_arg15) :=
  kept_arg ops (fun _ h => h) (launchContents m c) main_arg15 (by decide)

/-- Argument 16 is written by no operation. -/
theorem ref_arg16 (c : Dev nD) : after (ops (F := Ideal)) (launchContents m c) (Proc.devRef .tc main_arg16) = m ((c.tc : Thread nD τ).loc main_arg16) :=
  kept_arg ops (fun _ h => h) (launchContents m c) main_arg16 (by decide)

/-- Argument 17 is written by no operation. -/
theorem ref_arg17 (c : Dev nD) : after (ops (F := Ideal)) (launchContents m c) (Proc.devRef .tc main_arg17) = m ((c.tc : Thread nD τ).loc main_arg17) :=
  kept_arg ops (fun _ h => h) (launchContents m c) main_arg17 (by decide)

/-- Argument 18 is written by no operation. -/
theorem ref_arg18 (c : Dev nD) : after (ops (F := Ideal)) (launchContents m c) (Proc.devRef .tc main_arg18) = m ((c.tc : Thread nD τ).loc main_arg18) :=
  kept_arg ops (fun _ h => h) (launchContents m c) main_arg18 (by decide)

/-- The reference runs: every weakly fair execution terminates, its results are the network's embedding and
    log-probabilities of the arguments, and the arguments are unchanged. -/
theorem runR (ρ : Dev nD → PrngReg) :
    θ_run defs (onTc (τ := τ) (main (F := Ideal))) ⟨m, fun _ => 0, ρ⟩ fun r => ∀ c : Dev nD,
      r.2.mem ((c.tc : Thread nD τ).loc main_v132) = net3 aggR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v144) = netOut aggR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨(h c main_v132).trans (ref_emb m c), (h c main_v144).trans (ref_out m c),
      (h c main_arg0).trans (ref_arg0 m c),
      (h c main_arg1).trans (ref_arg1 m c),
      (h c main_arg2).trans (ref_arg2 m c),
      (h c main_arg3).trans (ref_arg3 m c),
      (h c main_arg4).trans (ref_arg4 m c),
      (h c main_arg5).trans (ref_arg5 m c),
      (h c main_arg6).trans (ref_arg6 m c),
      (h c main_arg7).trans (ref_arg7 m c),
      (h c main_arg8).trans (ref_arg8 m c),
      (h c main_arg9).trans (ref_arg9 m c),
      (h c main_arg10).trans (ref_arg10 m c),
      (h c main_arg11).trans (ref_arg11 m c),
      (h c main_arg12).trans (ref_arg12 m c),
      (h c main_arg13).trans (ref_arg13 m c),
      (h c main_arg14).trans (ref_arg14 m c),
      (h c main_arg15).trans (ref_arg15 m c),
      (h c main_arg16).trans (ref_arg16 m c),
      (h c main_arg17).trans (ref_arg17 m c),
      (h c main_arg18).trans (ref_arg18 m c)⟩)
    (run_fold m ρ)

end Cert.Sage

end
-- ==== Proof.PreDecode.lean ====
/-
  The precondition says, among other things, that every source index of the edge list is a node number.
-/
import proofs.«429018_j42013370089829_2_alg».proof.Pre_finite_inputs
import proofs.«429018_j42013370089829_2_alg».proof.Proof.Gen.Pre_finite_inputs
import proofs.«429018_j42013370089829_2_alg».proof.Proof.AggBridge

noncomputable section

namespace Cert.Sage

open Idealize.ShloMosaic Idealize.ShloMosaic.ValueIdx

/-- From the precondition's last conjunct: row 0 of the edge list holds node numbers. -/
theorem srcOk_of_pre (a0 : FVec Ideal SNxD .f32) (a1 : IVec SE2 32) (a2 : FVec Ideal SDxD .f32) (a3 : FVec Ideal SD .f32)
    (a4 a5 : FVec Ideal SDxD .f32) (a6 : FVec Ideal SD .f32) (a7 a8 : FVec Ideal SDxD .f32) (a9 : FVec Ideal SD .f32)
    (a10 : FVec Ideal SDxD .f32) (a11 a12 a13 a14 : FVec Ideal SD .f32) (a15 : FVec Ideal ⟨2, ![50, 128]⟩ .f32)
    (a16 : FVec Ideal ⟨1, ![50]⟩ .f32) (a17 : FVec Ideal ⟨2, ![16, 50]⟩ .f32) (a18 : FVec Ideal ⟨1, ![16]⟩ .f32)
    (h : Cert.Pre_finite_inputs.fn (F := Ideal) a0 a1 a2 a3 a4 a5 a6 a7 a8 a9 a10 a11 a12 a13 a14 a15 a16 a17 a18 = fun _ => 1#1) :
    SrcOk (edgeRow 0 (by decide) (by decide) a1) := by
  intro e
  -- the precondition is a conjunction of scalars; its last conjunct is the test over the sources
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  have h1 := (IntOp.andi_eq_one.1 h0).2
  haveI : Subsingleton (⟨0, ![]⟩ : Shape).Idx := ⟨fun a b => funext fun d => d.elim0⟩
  -- the test holds at every edge
  have h2 := Host.reduce_andi_all _ _ _ _ _ h1 (ix1 e)
  obtain ⟨hge, hlt⟩ := IntOp.andi_eq_one.1 h2
  have hge' := IntOp.cmpi_sge.1 hge
  have hlt' := IntOp.cmpi_slt.1 hlt
  refine ⟨?_, ?_⟩
  · have z : ((0#32 : BitVec 32)).toInt = 0 := by decide
    exact z ▸ hge'
  · have z : ((100000#32 : BitVec 32)).toInt = 100000 := by decide
    exact z ▸ hlt'

end Cert.Sage

end
-- ==== Proof.lean ====
/-
  A three-layer graph-convolution network with a two-layer log-softmax head, tiled over blocks of 5000 nodes, against the
  same network written with whole-array operations, over the extended reals.

  Both programs compute, layer by layer, relu (mean_{j → i} h_j · Wlᵀ + bl + h_i · Wrᵀ), normalise the rows after the first
  two layers, and end with log_softmax (relu (h · W1ᵀ + b1) · W2ᵀ + b2). The tiled calls are row-wise, so twenty blocks of
  rows of a layer are the layer of the whole array; sums and products are exact, so tiling and the order of a sum do not
  matter. The one place the programs differ is the read of the source rows: the tiled program's read fills rows whose
  source index is outside [0, 100000) with a not-a-number where the reference clamps the index, and it counts degrees in
  a vector instead of a one-column matrix. Under the precondition every source index is a node number, and the two reads
  are the same.
-/
import proofs.«429018_j42013370089829_2_alg».proof.Defs
import proofs.«429018_j42013370089829_2_alg».proof.Proof.Gen.Kernel
import proofs.«429018_j42013370089829_2_alg».proof.Proof.Gen.Kernel.Skeleton
import proofs.«429018_j42013370089829_2_alg».proof.Proof.Gen.Kernel.Launch
import proofs.«429018_j42013370089829_2_alg».proof.Proof.Gen.Kernel.Points
import proofs.«429018_j42013370089829_2_alg».proof.Proof.Gen.Kernel.Frame
import proofs.«429018_j42013370089829_2_alg».proof.Proof.Gen.KernelIdeal
import proofs.«429018_j42013370089829_2_alg».proof.Proof.Gen.KernelIdeal.Skeleton
import proofs.«429018_j42013370089829_2_alg».proof.Proof.Gen.KernelIdeal.Launch
import proofs.«429018_j42013370089829_2_alg».proof.Proof.Gen.KernelIdeal.Points
import proofs.«429018_j42013370089829_2_alg».proof.Proof.Gen.KernelIdeal.Frame
import proofs.«429018_j42013370089829_2_alg».proof.Proof.Gen.ReferenceIdeal
import proofs.«429018_j42013370089829_2_alg».proof.Proof.Gen.Pre_finite_inputs
import proofs.«429018_j42013370089829_2_alg».proof.Proof.KernelRun
import proofs.«429018_j42013370089829_2_alg».proof.Proof.Boundaries
import proofs.«429018_j42013370089829_2_alg».proof.Proof.RefSide
import proofs.«429018_j42013370089829_2_alg».proof.Proof.PreDecode
import Idealize.ShloMosaic.Adequacy
import Idealize.ShloMosaic.Init

noncomputable section

namespace Cert.Proof

open Idealize.ShloMosaic Idealize.SL.Sem Cert.Sage

/-- The tiled program's third hidden state is the network's embedding over the filling read. -/
theorem kH3_eq (m : (ℓ : Loc Cert.KernelIdeal.nD Cert.KernelIdeal.τ Cert.KernelIdeal.sig) → Buf (Elt Ideal) ℓ) (c : Dev Cert.KernelIdeal.nD) :
    kH3 m c = net3 aggK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := rfl

/-- … and its head's result the network's log-probabilities. -/
theorem kOut_eq (m : (ℓ : Loc Cert.KernelIdeal.nD Cert.KernelIdeal.τ Cert.KernelIdeal.sig) → Buf (Elt Ideal) ℓ) (c : Dev Cert.KernelIdeal.nD) :
    kOut m c = netOut aggK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) := rfl

/-- Both programs run; from memories agreeing on the arguments their results are the network's embedding and
    log-probabilities, over the filling read on one side and the direct read on the other: equal, the sources being node
    numbers by the precondition. -/
theorem algebraic : Cert.algebraic_KernelIdeal_ReferenceIdeal := by
  intro m ρ m' ρ' hpre hagree
  have hsrc : ∀ c : Dev Cert.KernelIdeal.nD, SrcOk (edgeRow 0 (by decide) (by decide)
      (m ((c.tc : Thread Cert.KernelIdeal.nD Cert.KernelIdeal.τ).loc Cert.KernelIdeal.main_arg1))) :=
    fun c => srcOk_of_pre _ _ _ _ _ _ _ _ _ _ _ _ _ _ _ _ _ _ _ (hpre c)
  refine ⟨fun c => kH3 m c, fun c => kOut m c, ?_, ?_⟩
  · exact (θ_run (Cert.KernelIdeal.defs (F := Ideal)) _ _).mono
      (fun r h c => ⟨(h c).1.trans (W11_emb m ρ c), (h c).2.1.trans (W11_out m ρ c), (h c).2.2⟩) (runK m ρ)
  · refine (θ_run (Cert.ReferenceIdeal.defs (F := Ideal)) _ _).mono
      (fun r h c => ⟨(h c).1.trans ?_, (h c).2.1.trans ?_, (h c).2.2⟩) (runR m' ρ')
    · obtain ⟨a0, a1, a2, a3, a4, a5, a6, a7, a8, a9, a10, a11, a12, a13, a14, a15, a16, a17, a18⟩ := hagree c
      show _ = kH3 m c
      rw [a0, a1, a2, a3, a4, a5, a6, a7, a8, a9, a10, a11, a12, a13, a14, kH3_eq]
      exact (net3_K_eq_R _ _ _ _ _ _ _ _ _ _ _ _ _ _ _ (hsrc c)).symm
    · obtain ⟨a0, a1, a2, a3, a4, a5, a6, a7, a8, a9, a10, a11, a12, a13, a14, a15, a16, a17, a18⟩ := hagree c
      show _ = kOut m c
      rw [a0, a1, a2, a3, a4, a5, a6, a7, a8, a9, a10, a11, a12, a13, a14, a15, a16, a17, a18, kOut_eq]
      exact (netOut_K_eq_R _ _ _ _ _ _ _ _ _ _ _ _ _ _ _ _ _ _ _ (hsrc c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (runR m ρ),
  trivial,
  algebraic⟩

end Cert.Proof

end
